-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_v63 : IVec S_ 1) (main_v65 : IVec S2x640000 1) (main_v67 : IVec S2x640000 1) : IVec S_ 1 :=
  let main_v68 : IVec S2x640000 1 := andi main_v65 main_v67
  let main_c_26 : IVec S_ 1 := constantI S_ 1 1#1
  let main_v69 : IVec S_ 1 := (fun x v => Host.reduce IntOp.andi x v reducesTo_S2x640000_S_d0_1 h_S_) main_v68 main_c_26
  let main_v70 : IVec S_ 1 := andi main_v63 main_v69
  main_v70

def fn_part3 {F : FTy → Type} [FloatOps F] (main_arg1 : IVec S2x640000 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 32 := constantI S_ 32 50000#32
  let main_v66 : IVec S2x640000 32 := broadcastInDim S2x640000 ![] bcast_S_S2x640000 main_c_25
  let main_v67 : IVec S2x640000 1 := cmpi .slt main_arg1 main_v66
  fn_part4 (F := F) main_v63 main_v65 main_v67

def fn_part2 {F : FTy → Type} [FloatOps F] (main_arg1 : IVec S2x640000 32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x640000 32) (main_arg5 : FVec F S1 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x640000 32) (main_arg2 : FVec F S256x128 .f32) (main_arg3 : FVec F S128 .f32) (main_arg4 : FVec F S128x1 .f32) (main_arg5 : FVec F S1 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S1x128 : Shape := ⟨2, ![1, 128]⟩
abbrev S2000x128 : Shape := ⟨2, ![2000, 128]⟩
abbrev S2000x256 : Shape := ⟨2, ![2000, 256]⟩
abbrev S2000x1 : Shape := ⟨2, ![2000, 1]⟩

abbrev nBuf : Space → Nat
  | .hbm => 79
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S1, .i32⟩
  | .hbm, ⟨27, _⟩ => ⟨S_, .i32⟩
  | .hbm, ⟨28, _⟩ => ⟨S640000x1, .i32⟩
  | .hbm, ⟨29, _⟩ => ⟨S640000x1, .i1⟩
  | .hbm, ⟨30, _⟩ => ⟨S1x1, .i32⟩
  | .hbm, ⟨31, _⟩ => ⟨S640000x1, .i32⟩
  | .hbm, ⟨32, _⟩ => ⟨S640000x1, .i1⟩
  | .hbm, ⟨33, _⟩ => ⟨S640000x1, .i1⟩
  | .hbm, ⟨34, _⟩ => ⟨S_, .i1⟩
  | .hbm, ⟨35, _⟩ => ⟨S640000, .i1⟩
  | .hbm, ⟨36, _⟩ => ⟨S640000x128, .f32⟩
  | .hbm, ⟨37, _⟩ => ⟨S640000x128, .i1⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S1, .i32⟩
  | .hbm, ⟨50, _⟩ => ⟨S_, .i32⟩
  | .hbm, ⟨51, _⟩ => ⟨S640000x1, .i32⟩
  | .hbm, ⟨52, _⟩ => ⟨S640000x1, .i1⟩
  | .hbm, ⟨53, _⟩ => ⟨S1x1, .i32⟩
  | .hbm, ⟨54, _⟩ => ⟨S640000x1, .i32⟩
  | .hbm, ⟨55, _⟩ => ⟨S640000x1, .i1⟩
  | .hbm, ⟨56, _⟩ => ⟨S640000x1, .i1⟩
  | .hbm, ⟨57, _⟩ => ⟨S_, .i1⟩
  | .hbm, ⟨58, _⟩ => ⟨S640000, .i1⟩
  | .hbm, ⟨59, _⟩ => ⟨S640000x128, .f32⟩
  | .hbm, ⟨60, _⟩ => ⟨S640000x128, .i1⟩
  | .hbm, ⟨61, _⟩ => ⟨S_, .f32⟩
  | .hbm, ⟨62, _⟩ => ⟨S640000x128, .f32⟩
  | .hbm, ⟨63, _⟩ => ⟨S640000x128, .f32⟩
  | .hbm, ⟨64, _⟩ => ⟨S1x128, .f32⟩
  | .hbm, ⟨65, _⟩ => ⟨S1x1, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S640000x128, .f32⟩
  | .hbm, ⟨71, _⟩ => ⟨S_, .f32⟩
  | .hbm, ⟨72, _⟩ => ⟨S50000x128, .f32⟩
  | .hbm, ⟨73, _⟩ => ⟨S640000x1, .i32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S256x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_cst : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_cst_0 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  dot_S2000x128_S128x128_S2000x128_1_0_0_1_n_n_wf : DotDims.WF S2000x128 S128x128 S2000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S640000x128.size a
  hwx0_14 : ∀ i : grid0.Coords, EltTy.bits .f32 = 32 ∨ (Rect.block (s := S640000x128) S2000x128.size (cc0_transform_14 i) (hinb0_14 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x256, .f32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x1, .f32⟩
  | .hbm, ⟨43, _⟩ => ⟨S1x1, .f32⟩
  | .hbm, ⟨44, _⟩ => ⟨S640000x1, .f32⟩
  | .hbm, ⟨45, _⟩ => ⟨S640000x1, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S1x128, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S1x128, .f32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S1x128, .f32⟩
  | .hbm, ⟨63, _⟩ => ⟨S640000x128, .f32⟩
  | .hbm, ⟨64, _⟩ => ⟨S640000x128, .f32⟩
  | .hbm, ⟨65, _⟩ => ⟨S640000x128, .f32⟩
  | .hbm, ⟨66, _⟩ => ⟨S640000x128, .f32⟩
  | .hbm, ⟨67, _⟩ => ⟨S1x128, .f32⟩
  | .hbm, ⟨68, _⟩ => ⟨S640000x128, .f32⟩
  | .hbm, ⟨69, _⟩ => ⟨S640000x128, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S50000x128, .f32⟩
  | .hbm, ⟨74, _⟩ => ⟨S640000x1, .i32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_3 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S640000x1_S640000x128_0_1 : S640000x1.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.Domain.lean ====
/- The index domain of the statement: every entry of `edge_index` is a node number, `0 ≤ e < 50000`.  The
   precondition's last conjunct says so as `jnp.all((edge_index >= 0) & (edge_index < 50000))`; here it is read back
   entry by entry as two inequalities between integers. -/
import proofs.«418441_j41128606827044_1_alg».proof.Proof.Gen.Pre_finite_inputs
import Idealize.ShloMosaic.Lib.ReduceAll
import Idealize.ShloMosaic.Lib.ValueIdx

noncomputable section

namespace Cert.Domain

open Idealize.ShloMosaic Cert.Pre_finite_inputs

instance : Subsingleton S_.Idx := ⟨fun a b => funext fun d => d.elim0⟩

variable [Cert.Pre_finite_inputs.Facts]

/-- Under the precondition every entry of the edge list, read as a signed word, lies in `[0, 50000)`. -/
theorem edge_range {F : FTy → Type} [FloatOps F]
    (a0 : FVec F S50000x128 .f32) (a1 : IVec S2x640000 32) (a2 : FVec F S256x128 .f32) (a3 : FVec F S128 .f32)
    (a4 : FVec F S128x1 .f32) (a5 : FVec F S1 .f32) (a6 : FVec F S128x128 .f32) (a7 : FVec F S128 .f32)
    (a8 : FVec F S128x128 .f32) (a9 : FVec F S128 .f32) (a10 : FVec F S256x128 .f32) (a11 : FVec F S128 .f32)
    (a12 : FVec F S128x128 .f32) (a13 : FVec F S128 .f32)
    (h : fn (F := F) a0 a1 a2 a3 a4 a5 a6 a7 a8 a9 a10 a11 a12 a13 = fun _ => 1#1) (i : S2x640000.Idx) :
    0 ≤ (a1 i).toInt ∧ (a1 i).toInt < 50000 := by
  have h0 := congrFun h ValueIdx.ix0
  dsimp only [fn, fn_part1, fn_part2, fn_part3, fn_part4] at h0
  have h1 := (IntOp.andi_eq_one.1 h0).2
  have h2 := Host.reduce_andi_all _ _ _ _ _ h1 i
  obtain ⟨hge, hlt⟩ := IntOp.andi_eq_one.1 h2
  exact ⟨IntOp.cmpi_sge.1 hge, IntOp.cmpi_slt.1 hlt⟩

end Cert.Domain

end
-- ==== Proof.Spec.lean ====
/- The per-edge message of the layer, as one function of the two gathered rows and the weights, over the
   extended reals.  For an edge with source row `a` and target row `b` (each 128 numbers) and `x = [a ; b]`:
     nu        = tanh (x · vw1 + vb1) · vw2 + vb2                 (a scalar)
     diffusion = nu * (b - a)
     force     = max (x · fw1 + fb1, 0) · fw2 + fb2
     pressure  = tanh ((a - b) · pw1 + pb1) · pw2 + pb2
     message   = (diffusion + force) - pressure.
   Every product `v · W` is the plain sum over the contracted coordinate; nothing is regrouped, so no law of the
   extended reals beyond the definitions is used anywhere below. -/
import Idealize.ShloMosaic.PureOps.Ideal
import Idealize.ShloMosaic.Lib.ValueIdx

noncomputable section

namespace Cert.EdgeSpec

open Idealize.ShloMosaic Idealize.ShloMosaic.ValueIdx
open scoped BigOperators

/-- The two rows laid side by side: coordinates below 128 read the first, the others the second. -/
def cat (a b : Fin 128 → EReal) : Fin 256 → EReal :=
  fun k => if h : k.val < 128 then a ⟨k.val, h⟩ else b ⟨k.val - 128, by have := k.isLt; omega⟩

/-- One dense layer's output coordinate `j`: the row times column `j` of the weights, plus the bias. -/
def dense {n : Nat} (x : Fin n → EReal) (W : Fin n → Fin 128 → EReal) (bias : Fin 128 → EReal) (j : Fin 128) : EReal :=
  (∑ k : Fin n, x k * W k j) + bias j

/-- The viscosity of an edge: a scalar. -/
def nu (a b : Fin 128 → EReal) (vw1 : Fin 256 → Fin 128 → EReal) (vb1 : Fin 128 → EReal) (vw2 : Fin 128 → EReal) (vb2 : EReal) : EReal :=
  (∑ j : Fin 128, Ideal.tanh (dense (cat a b) vw1 vb1 j) * vw2 j) + vb2

/-- The message an edge sends, coordinate `d`. -/
def edgeMsg (a b : Fin 128 → EReal)
    (vw1 : Fin 256 → Fin 128 → EReal) (vb1 : Fin 128 → EReal) (vw2 : Fin 128 → EReal) (vb2 : EReal)
    (pw1 : Fin 128 → Fin 128 → EReal) (pb1 : Fin 128 → EReal) (pw2 : Fin 128 → Fin 128 → EReal) (pb2 : Fin 128 → EReal)
    (fw1 : Fin 256 → Fin 128 → EReal) (fb1 : Fin 128 → EReal) (fw2 : Fin 128 → Fin 128 → EReal) (fb2 : Fin 128 → EReal)
    (d : Fin 128) : EReal :=
  (nu a b vw1 vb1 vw2 vb2 * (b d - a d)
    + dense (fun j => max (dense (cat a b) fw1 fb1 j) (Ideal.ofBits .f32 0x00000000#32)) fw2 fb2 d)
  - dense (fun j => Ideal.tanh (dense (fun k => a k - b k) pw1 pb1 j)) pw2 pb2 d

end Cert.EdgeSpec

end
-- ==== Proof.KernelBody.lean ====
/- What the kernel body leaves in its output block, read at one entry: row `p` of the block is the message of
   the edge whose two gathered rows are row `p` of the two input blocks. -/
import proofs.«418441_j41128606827044_1_alg».proof.Proof.Gen.KernelIdeal.Frame
import proofs.«418441_j41128606827044_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.EdgeSpec
open scoped BigOperators

/-! ### The product of a `2000×256` block by a `256×128` block -/

private theorem lhsA_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
private theorem lhsA_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
private theorem rhsA_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
private theorem rhsA_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into a zero accumulator the product read at `(p, j)` is the plain sum over the contracted coordinate. -/
private theorem matmulA_apply (lhs : FVec Ideal S2000x256 .bf16) (rhs : FVec Ideal S256x128 .bf16) (p : Fin 2000) (j : Fin 128) :
    matmul (F := Ideal) dot_S2000x256_S256x128_S2000x128_1_0_0_1_n_n none lhs rhs (constant (F := Ideal) S2000x128 .f32 0x00000000#32) (ix2 p j)
      = ∑ k : Fin 256, lhs (ix2 p k) * rhs (ix2 k j) := by
  show FloatOps.matmul dot_S2000x256_S256x128_S2000x128_1_0_0_1_n_n none lhs rhs (constant (F := Ideal) S2000x128 .f32 0x00000000#32) (ix2 p j) = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p j) ((ValueIdx.contrEquiv1 dot_S2000x256_S256x128_S2000x128_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x128_S2000x128_1_0_0_1_n_n.rhsIdx (ix2 p j) ((ValueIdx.contrEquiv1 dot_S2000x256_S256x128_S2000x128_1_0_0_1_n_n 256 rfl rfl).symm k) = ix2 k j := funext fun a => Fin.ext (by
    match a with
    | ⟨0, _⟩ => exact (rhsA_0 _ _).trans hk
    | ⟨1, _⟩ => exact rhsA_1 _ _)
  rw [el, er]

/-! ### The product of a `2000×128` block by a `128×1` block -/

private theorem lhsB_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
private theorem lhsB_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
private theorem rhsB_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
private theorem rhsB_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- Into a zero accumulator the product read at `(p, j)` is the plain sum over the contracted coordinate. -/
private theorem matmulB_apply (lhs : FVec Ideal S2000x128 .bf16) (rhs : FVec Ideal S128x1 .bf16) (p : Fin 2000) (j : Fin 1) :
    matmul (F := Ideal) dot_S2000x128_S128x1_S2000x1_1_0_0_1_n_n none lhs rhs (constant (F := Ideal) S2000x1 .f32 0x00000000#32) (ix2 p j)
      = ∑ k : Fin 128, lhs (ix2 p k) * rhs (ix2 k j) := by
  show FloatOps.matmul dot_S2000x128_S128x1_S2000x1_1_0_0_1_n_n none lhs rhs (constant (F := Ideal) S2000x1 .f32 0x00000000#32) (ix2 p j) = _
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p j) ((ValueIdx.contrEquiv1 dot_S2000x128_S128x1_S2000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S2000x128_S128x1_S2000x1_1_0_0_1_n_n.rhsIdx (ix2 p j) ((ValueIdx.contrEquiv1 dot_S2000x128_S128x1_S2000x1_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ### The product of a `2000×128` block by a `128×128` block -/

private theorem lhsC_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhsC_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhsC_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhsC_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into a zero accumulator the product read at `(p, j)` is the plain sum over the contracted coordinate. -/
private theorem matmulC_apply (lhs : FVec Ideal S2000x128 .bf16) (rhs : FVec Ideal S128x128 .bf16) (p : Fin 2000) (j : Fin 128) :
    matmul (F := Ideal) dot_S2000x128_S128x128_S2000x128_1_0_0_1_n_n none lhs rhs (constant (F := Ideal) S2000x128 .f32 0x00000000#32) (ix2 p j)
      = ∑ k : Fin 128, lhs (ix2 p k) * rhs (ix2 k j) := by
  show FloatOps.matmul dot_S2000x128_S128x128_S2000x128_1_0_0_1_n_n none lhs rhs (constant (F := Ideal) S2000x128 .f32 0x00000000#32) (ix2 p j) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p j) ((ValueIdx.contrEquiv1 dot_S2000x128_S128x128_S2000x128_1_0_0_1_n_n 128 rfl rfl).symm k) = ix2 p k := funext fun a => Fin.ext (by
    match a with
    | ⟨0, _⟩ => exact lhsC_0 _ _
    | ⟨1, _⟩ => exact (lhsC_1 _ _).trans hk)
  have er : dot_S2000x128_S128x128_S2000x128_1_0_0_1_n_n.rhsIdx (ix2 p j) ((ValueIdx.contrEquiv1 dot_S2000x128_S128x128_S2000x128_1_0_0_1_n_n 128 rfl rfl).symm k) = ix2 k j := funext fun a => Fin.ext (by
    match a with
    | ⟨0, _⟩ => exact (rhsC_0 _ _).trans hk
    | ⟨1, _⟩ => exact rhsC_1 _ _)
  rw [el, er]

/-! ### Layout -/

private theorem hz2 : (![0, 0] : Fin 2 → Nat) = fun _ => 0 :=
  funext fun a => match a with | ⟨0, _⟩ => rfl | ⟨1, _⟩ => rfl

/-- A `[2000, 1]` column broadcast to `[2000, 128]` reads, at `(p, c)`, the column's entry of row `p`. -/
private theorem broadcastTo_col_apply {α : Type} (v : S2000x1.Idx → α) (h : S2000x1.Broadcasts S2000x128)
    (p : Fin 2000) (c : Fin 128) : broadcastTo S2000x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ### The dense layers over arbitrary operands -/

/-- A dense layer on the 256 concatenated coordinates: product into a zero accumulator plus the bias row. -/
private theorem denseA_apply (x : FVec Ideal S2000x256 .bf16) (w : FVec Ideal S256x128 .bf16) (bias : Vec Ideal S1x128 .f32)
    (p : Fin 2000) (j : Fin 128) :
    addf (matmul (F := Ideal) dot_S2000x256_S256x128_S2000x128_1_0_0_1_n_n none x w (constant (F := Ideal) S2000x128 .f32 0x00000000#32))
        (broadcastTo S2000x128 (shapeCast S1x128 bias shapeCasts_S1x128_S1x128) broadcasts_S1x128_S2000x128) (ix2 p j)
      = dense (fun k => x (ix2 p k)) (fun k j => w (ix2 k j)) (fun j => bias (ix2 0 j)) j := by
  rw [addf_apply, matmulA_apply, shapeCast_self, broadcastTo_1b_ab_apply]
  rfl

/-- A dense layer on 128 coordinates. -/
private theorem denseC_apply (x : FVec Ideal S2000x128 .bf16) (w : FVec Ideal S128x128 .bf16) (bias : Vec Ideal S1x128 .f32)
    (p : Fin 2000) (j : Fin 128) :
    addf (matmul (F := Ideal) dot_S2000x128_S128x128_S2000x128_1_0_0_1_n_n none x w (constant (F := Ideal) S2000x128 .f32 0x00000000#32))
        (broadcastTo S2000x128 (shapeCast S1x128 bias shapeCasts_S1x128_S1x128) broadcasts_S1x128_S2000x128) (ix2 p j)
      = dense (fun k => x (ix2 p k)) (fun k j => w (ix2 k j)) (fun j => bias (ix2 0 j)) j := by
  rw [addf_apply, matmulC_apply, shapeCast_self, broadcastTo_1b_ab_apply]
  rfl

/-- The scalar layer: a row times the one weight column plus the one bias, laid along the 128 lanes. -/
private theorem scalarB_apply (x : FVec Ideal S2000x128 .bf16) (w : FVec Ideal S128x1 .bf16) (c : Vec Ideal S1x1 .f32)
    (p : Fin 2000) (q : Fin 128) :
    broadcastTo S2000x128
        (addf (matmul (F := Ideal) dot_S2000x128_S128x1_S2000x1_1_0_0_1_n_n none x w (constant (F := Ideal) S2000x1 .f32 0x00000000#32))
          (broadcastTo S2000x1 (shapeCast S1x1 c shapeCasts_S1x1_S1x1) broadcasts_S1x1_S2000x1))
        broadcasts_S2000x1_S2000x128 (ix2 p q)
      = (∑ k : Fin 128, x (ix2 p k) * w (ix2 k 0)) + c (ix2 0 0) := by
  rw [broadcastTo_col_apply, addf_apply, matmulB_apply, shapeCast_self, broadcastTo_1b_ab_apply]

/-! ### The payloads at an index -/

private theorem pay2_eq (v0 : Vec Ideal S2000x128 .f32) : k0_pay2 (F := Ideal) v0 = v0 :=
  shapeCast_self v0 shapeCasts_S2000x128_S2000x128

private theorem pay3_eq (v2 : Vec Ideal S2000x128 .f32) : k0_pay3 (F := Ideal) v2 = v2 :=
  shapeCast_self v2 shapeCasts_S2000x128_S2000x128

/-- The two blocks laid side by side, read in row `p`: the two rows laid side by side. -/
private theorem pay4_apply (v0 v2 : Vec Ideal S2000x128 .f32) (p : Fin 2000) (k : Fin 256) :
    k0_pay4 (F := Ideal) v0 v2 (ix2 p k) = cat (fun k => v0 (ix2 p k)) (fun k => v2 (ix2 p k)) k := by
  show concatenate S2000x256 1 [⟨S2000x128, k0_pay2 (F := Ideal) v0⟩, ⟨S2000x128, k0_pay3 (F := Ideal) v2⟩]
    concatenates_S2000x128_S2000x128_S2000x256_d1 (ix2 p k) = _
  rw [pay2_eq, pay3_eq]
  unfold cat
  by_cases h : k.val < 128
  · rw [dif_pos h]
    exact concatenate_pair_apply_left (t := S2000x256) 1 v0 v2 concatenates_S2000x128_S2000x128_S2000x256_d1 (ix2 p k) rfl
      (ix2 p ⟨k.val, h⟩) (fun b => match b with | ⟨0, _⟩ => rfl | ⟨1, _⟩ => rfl)
  · rw [dif_neg h]
    exact concatenate_pair_apply_right (t := S2000x256) 1 v0 v2 concatenates_S2000x128_S2000x128_S2000x256_d1 (ix2 p k) rfl rfl
      (ix2 p ⟨k.val - 128, by have := k.isLt; omega⟩)
      (fun b hb => match b, hb with | ⟨0, _⟩, _ => rfl | ⟨1, _⟩, hb => absurd rfl hb)
      (by show k.val - 128 + 128 = k.val; omega)

/-- The diffusion term: the viscosity of the edge times the difference of its two rows. -/
private theorem pay5_apply (v0 v2 : Vec Ideal S2000x128 .f32) (v6 : Vec Ideal S256x128 .f32) (v8 : Vec Ideal S1x128 .f32)
    (v14 : Vec Ideal S128x1 .f32) (v16 : Vec Ideal S1x1 .f32) (p : Fin 2000) (q : Fin 128) :
    k0_pay5 (F := Ideal) v0 v2 v6 v8 v14 v16 (ix2 p q)
      = nu (fun k => v0 (ix2 p k)) (fun k => v2 (ix2 p k)) (fun k j => v6 (ix2 k j)) (fun j => v8 (ix2 0 j))
          (fun j => v14 (ix2 j 0)) (v16 (ix2 0 0)) * (v2 (ix2 p q) - v0 (ix2 p q)) := by
  unfold k0_pay5
  refine (mulf_apply _ _ (ix2 p q)).trans ?_
  rw [scalarB_apply, subf_apply, pay2_eq, pay3_eq]
  unfold nu
  refine congrArg (fun s => (s + _) * _) (Finset.sum_congr rfl fun k _ => ?_)
  refine congrArg (fun t => Ideal.tanh t * _) ?_
  refine (denseA_apply _ _ _ p k).trans ?_
  exact congrArg (fun x => dense x _ _ k) (funext fun i => pay4_apply v0 v2 p i)

/-- The hidden layer of the force network: the dense layer of the two rows side by side, cut below at zero. -/
private theorem pay6_apply (v0 v2 : Vec Ideal S2000x128 .f32) (v25 : Vec Ideal S256x128 .f32) (v27 : Vec Ideal S1x128 .f32)
    (p : Fin 2000) (j : Fin 128) :
    k0_pay6 (F := Ideal) v0 v2 v25 v27 (ix2 p j)
      = max (dense (cat (fun k => v0 (ix2 p k)) (fun k => v2 (ix2 p k))) (fun k j => v25 (ix2 k j)) (fun j => v27 (ix2 0 j)) j)
          (Ideal.ofBits .f32 0x00000000#32) := by
  unfold k0_pay6
  refine (maximumf_apply _ _ (ix2 p j)).trans ?_
  refine congrArg (fun t => max t (Ideal.ofBits .f32 0x00000000#32)) ?_
  refine (denseA_apply _ _ _ p j).trans ?_
  exact congrArg (fun x => dense x _ _ j) (funext fun i => pay4_apply v0 v2 p i)

/-- The stored value: diffusion plus the force network's output layer, minus the pressure network. -/
private theorem pay1_apply (v1 v3 v24 v33 : FVec Ideal S2000x128 .f32) (v35 : FVec Ideal S128x128 .bf16) (v36 : Vec Ideal S1x128 .f32)
    (v44 : Vec Ideal S128x128 .f32) (v46 : Vec Ideal S1x128 .f32) (v52 : Vec Ideal S128x128 .f32) (v54 : Vec Ideal S1x128 .f32)
    (p : Fin 2000) (q : Fin 128) :
    k0_pay1 (F := Ideal) v1 v3 v24 v33 v35 v36 v44 v46 v52 v54 (ix2 p q)
      = (v24 (ix2 p q) + dense (fun j => v33 (ix2 p j)) (fun k j => v35 (ix2 k j)) (fun j => v36 (ix2 0 j)) q)
        - dense (fun j => Ideal.tanh (dense (fun k => v1 (ix2 p k) - v3 (ix2 p k)) (fun k j => v44 (ix2 k j)) (fun j => v46 (ix2 0 j)) j))
            (fun k j => v52 (ix2 k j)) (fun j => v54 (ix2 0 j)) q := by
  unfold k0_pay1
  refine (subf_apply _ _ (ix2 p q)).trans ?_
  refine congrArg₂ (fun a b : EReal => a - b) ?_ ?_
  · refine (addf_apply _ _ (ix2 p q)).trans ?_
    refine congrArg (fun t : EReal => v24 (ix2 p q) + t) ?_
    exact denseC_apply _ _ _ p q
  · refine (denseC_apply _ _ _ p q).trans ?_
    refine congrArg (fun x => dense x _ _ q) (funext fun j => ?_)
    refine congrArg Ideal.tanh ?_
    exact denseC_apply _ _ _ p j

/-- Entry `(p, q)` of the block the body stores is coordinate `q` of the message of rows `p`. -/
theorem out_apply (x0 x1 : Vec Ideal S2000x128 .f32) (x2 : Vec Ideal S256x128 .f32) (x3 : Vec Ideal S1x128 .f32)
    (x4 : Vec Ideal S128x1 .f32) (x5 : Vec Ideal S1x1 .f32) (x6 : Vec Ideal S128x128 .f32) (x7 : Vec Ideal S1x128 .f32)
    (x8 : Vec Ideal S128x128 .f32) (x9 : Vec Ideal S1x128 .f32) (x10 : Vec Ideal S256x128 .f32) (x11 : Vec Ideal S1x128 .f32)
    (x12 : Vec Ideal S128x128 .f32) (x13 : Vec Ideal S1x128 .f32) (p : Fin 2000) (q : Fin 128) :
    out0_14 (F := Ideal) x0 x1 x2 x3 x4 x5 x6 x7 x8 x9 x10 x11 x12 x13 (ix2 p q) =
      edgeMsg (fun k => x0 (ix2 p k)) (fun k => x1 (ix2 p k))
        (fun k j => x2 (ix2 k j)) (fun j => x3 (ix2 0 j)) (fun j => x4 (ix2 j 0)) (x5 (ix2 0 0))
        (fun k j => x6 (ix2 k j)) (fun j => x7 (ix2 0 j)) (fun k j => x8 (ix2 k j)) (fun j => x9 (ix2 0 j))
        (fun k j => x10 (ix2 k j)) (fun j => x11 (ix2 0 j)) (fun k j => x12 (ix2 k j)) (fun j => x13 (ix2 0 j)) q := by
  unfold out0_14
  rw [View.canon_unit_zero hz2]
  simp only [View.ld_unit_zero (S := S2000x128) hz2, View.ld_unit_zero (S := S256x128) hz2, View.ld_unit_zero (S := S1x128) hz2,
    View.ld_unit_zero (S := S128x1) hz2, View.ld_unit_zero (S := S1x1) hz2, View.ld_unit_zero (S := S128x128) hz2]
  rw [pay1_apply]
  simp only [pay5_apply, pay6_apply, pay2_eq, pay3_eq]
  rfl

end Cert.KernelIdeal.Body

end
-- ==== Proof.KernelArray.lean ====
/- From the blocks to the array.  The region has 320 grid points; point `t` reads rows `2000 t … 2000 t + 1999` of
   the two gathered arrays and every weight whole, and writes rows `2000 t … 2000 t + 1999` of the message array.
   So the message array ends as ONE function of the arrays the region finds: row `e` is the message of rows `e`. -/
import proofs.«418441_j41128606827044_1_alg».proof.Proof.KernelBody
import Idealize.ShloMosaic.Lib.Pipeline.Value

set_option maxRecDepth 16384

noncomputable section

namespace Cert.KernelIdeal.Arr

open Idealize.ShloMosaic Idealize.ShloMosaic.TcCoe Idealize.SL.Sem Idealize.ShloMosaic.ValueIdx
open Cert.KernelIdeal Cert.KernelIdeal.Gen Cert.EdgeSpec
open Idealize.ShloMosaic.Pipeline (Dat Cfg Window)

variable (m : (ℓ : Loc nD τ sig) → Buf (Elt Ideal) ℓ)

/-- The message array over the arrays the region is launched on: the two gathered arrays and the twelve weights
    (the biases as one-row arrays). -/
def msgArr (hi hj : Vec Ideal S640000x128 .f32) (w2 : Vec Ideal S256x128 .f32) (w3 : Vec Ideal S1x128 .f32)
    (w4 : Vec Ideal S128x1 .f32) (w5 : Vec Ideal S1x1 .f32) (w6 : Vec Ideal S128x128 .f32) (w7 : Vec Ideal S1x128 .f32)
    (w8 : Vec Ideal S128x128 .f32) (w9 : Vec Ideal S1x128 .f32) (w10 : Vec Ideal S256x128 .f32) (w11 : Vec Ideal S1x128 .f32)
    (w12 : Vec Ideal S128x128 .f32) (w13 : Vec Ideal S1x128 .f32) : Vec Ideal S640000x128 .f32 :=
  fun i => edgeMsg (fun k => hi (ix2 (i 0) k)) (fun k => hj (ix2 (i 0) k))
    (fun k j => w2 (ix2 k j)) (fun j => w3 (ix2 0 j)) (fun j => w4 (ix2 j 0)) (w5 (ix2 0 0))
    (fun k j => w6 (ix2 k j)) (fun j => w7 (ix2 0 j)) (fun k j => w8 (ix2 k j)) (fun j => w9 (ix2 0 j))
    (fun k j => w10 (ix2 k j)) (fun j => w11 (ix2 0 j)) (fun k j => w12 (ix2 k j)) (fun j => w13 (ix2 0 j)) (i 1)

/-- The index maps, decided over the grid: the two edge windows and the output move together down the rows, one block
    a point; every weight window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0 :=
  (by decide +kernel : ∀ t : Fin grid0.N, _)

theorem idx_facts_w : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## Each window's block, read where it lies in its array -/

theorem blk0 (c : Dev nD) (t : Fin cfg0.N) (p : Fin 2000) (k : Fin 128) (e : Fin 640000) (he : e.val = t.val * 2000 + p.val) :
    iblk m c 0 t (ix2 p k) = V m c (Pipeline.arrRef spec0 0) (ix2 e k) := by
  have hemb : ((cfg0.win 0).blk t).view.emb (ix2 p k) = ix2 e k := by
    obtain ⟨e0, e1⟩ := (⟨(idx_facts t).1, (idx_facts t).2.1⟩ : _ ∧ _)
    funext d; apply Fin.ext
    match d with
    | ⟨0, _⟩ => show win0_0.index t (0 : Fin 2) * 2000 + 1 * p.val = e.val; omega
    | ⟨1, _⟩ => show win0_0.index t (1 : Fin 2) * 128 + 1 * k.val = k.val; omega
  unfold iblk
  rw [View.read_apply, hemb]
  exact cast_eq _ _

theorem blk1 (c : Dev nD) (t : Fin cfg0.N) (p : Fin 2000) (k : Fin 128) (e : Fin 640000) (he : e.val = t.val * 2000 + p.val) :
    iblk m c 1 t (ix2 p k) = V m c (Pipeline.arrRef spec0 1) (ix2 e k) := by
  have hemb : ((cfg0.win 1).blk t).view.emb (ix2 p k) = ix2 e k := by
    obtain ⟨e0, e1⟩ := (⟨(idx_facts t).2.2.1, (idx_facts t).2.2.2.1⟩ : _ ∧ _)
    funext d; apply Fin.ext
    match d with
    | ⟨0, _⟩ => show win0_1.index t (0 : Fin 2) * 2000 + 1 * p.val = e.val; omega
    | ⟨1, _⟩ => show win0_1.index t (1 : Fin 2) * 128 + 1 * k.val = k.val; omega
  unfold iblk
  rw [View.read_apply, hemb]
  exact cast_eq _ _

theorem blk2 (c : Dev nD) (t : Fin cfg0.N) (a : Fin 256) (b : Fin 128) :
    iblk m c 2 t (ix2 a b) = V m c (Pipeline.arrRef spec0 2) (ix2 a b) := by
  have hemb : ((cfg0.win 2).blk t).view.emb (ix2 a b) = ix2 a b := by
    obtain ⟨e0, e1⟩ := (idx_facts_w t).1
    funext d; apply Fin.ext
    match d with
    | ⟨0, _⟩ => show win0_2.index t (0 : Fin 2) * 256 + 1 * a.val = a.val; omega
    | ⟨1, _⟩ => show win0_2.index t (1 : Fin 2) * 128 + 1 * b.val = b.val; omega
  unfold iblk
  rw [View.read_apply, hemb]
  exact cast_eq _ _

theorem blk3 (c : Dev nD) (t : Fin cfg0.N) (a : Fin 1) (b : Fin 128) :
    iblk m c 3 t (ix2 a b) = V m c (Pipeline.arrRef spec0 3) (ix2 a b) := by
  have hemb : ((cfg0.win 3).blk t).view.emb (ix2 a b) = ix2 a b := by
    obtain ⟨e0, e1⟩ := (idx_facts_w t).2.1
    funext d; apply Fin.ext
    match d with
    | ⟨0, _⟩ => show win0_3.index t (0 : Fin 2) * 1 + 1 * a.val = a.val; omega
    | ⟨1, _⟩ => show win0_3.index t (1 : Fin 2) * 128 + 1 * b.val = b.val; omega
  unfold iblk
  rw [View.read_apply, hemb]
  exact cast_eq _ _

theorem blk4 (c : Dev nD) (t : Fin cfg0.N) (a : Fin 128) (b : Fin 1) :
    iblk m c 4 t (ix2 a b) = V m c (Pipeline.arrRef spec0 4) (ix2 a b) := by
  have hemb : ((cfg0.win 4).blk t).view.emb (ix2 a b) = ix2 a b := by
    obtain ⟨e0, e1⟩ := (idx_facts_w t).2.2.1
    funext d; apply Fin.ext
    match d with
    | ⟨0, _⟩ => show win0_4.index t (0 : Fin 2) * 128 + 1 * a.val = a.val; omega
    | ⟨1, _⟩ => show win0_4.index t (1 : Fin 2) * 1 + 1 * b.val = b.val; omega
  unfold iblk
  rw [View.read_apply, hemb]
  exact cast_eq _ _

theorem blk5 (c : Dev nD) (t : Fin cfg0.N) (a : Fin 1) (b : Fin 1) :
    iblk m c 5 t (ix2 a b) = V m c (Pipeline.arrRef spec0 5) (ix2 a b) := by
  have hemb : ((cfg0.win 5).blk t).view.emb (ix2 a b) = ix2 a b := by
    obtain ⟨e0, e1⟩ := (idx_facts_w t).2.2.2.1
    funext d; apply Fin.ext
    match d with
    | ⟨0, _⟩ => show win0_5.index t (0 : Fin 2) * 1 + 1 * a.val = a.val; omega
    | ⟨1, _⟩ => show win0_5.index t (1 : Fin 2) * 1 + 1 * b.val = b.val; omega
  unfold iblk
  rw [View.read_apply, hemb]
  exact cast_eq _ _

theorem blk6 (c : Dev nD) (t : Fin cfg0.N) (a : Fin 128) (b : Fin 128) :
    iblk m c 6 t (ix2 a b) = V m c (Pipeline.arrRef spec0 6) (ix2 a b) := by
  have hemb : ((cfg0.win 6).blk t).view.emb (ix2 a b) = ix2 a b := by
    obtain ⟨e0, e1⟩ := (idx_facts_w t).2.2.2.2.1
    funext d; apply Fin.ext
    match d with
    | ⟨0, _⟩ => show win0_6.index t (0 : Fin 2) * 128 + 1 * a.val = a.val; omega
    | ⟨1, _⟩ => show win0_6.index t (1 : Fin 2) * 128 + 1 * b.val = b.val; omega
  unfold iblk
  rw [View.read_apply, hemb]
  exact cast_eq _ _

theorem blk7 (c : Dev nD) (t : Fin cfg0.N) (a : Fin 1) (b : Fin 128) :
    iblk m c 7 t (ix2 a b) = V m c (Pipeline.arrRef spec0 7) (ix2 a b) := by
  have hemb : ((cfg0.win 7).blk t).view.emb (ix2 a b) = ix2 a b := by
    obtain ⟨e0, e1⟩ := (idx_facts_w t).2.2.2.2.2.1
    funext d; apply Fin.ext
    match d with
    | ⟨0, _⟩ => show win0_7.index t (0 : Fin 2) * 1 + 1 * a.val = a.val; omega
    | ⟨1, _⟩ => show win0_7.index t (1 : Fin 2) * 128 + 1 * b.val = b.val; omega
  unfold iblk
  rw [View.read_apply, hemb]
  exact cast_eq _ _

theorem blk8 (c : Dev nD) (t : Fin cfg0.N) (a : Fin 128) (b : Fin 128) :
    iblk m c 8 t (ix2 a b) = V m c (Pipeline.arrRef spec0 8) (ix2 a b) := by
  have hemb : ((cfg0.win 8).blk t).view.emb (ix2 a b) = ix2 a b := by
    obtain ⟨e0, e1⟩ := (idx_facts_w t).2.2.2.2.2.2.1
    funext d; apply Fin.ext
    match d with
    | ⟨0, _⟩ => show win0_8.index t (0 : Fin 2) * 128 + 1 * a.val = a.val; omega
    | ⟨1, _⟩ => show win0_8.index t (1 : Fin 2) * 128 + 1 * b.val = b.val; omega
  unfold iblk
  rw [View.read_apply, hemb]
  exact cast_eq _ _

theorem blk9 (c : Dev nD) (t : Fin cfg0.N) (a : Fin 1) (b : Fin 128) :
    iblk m c 9 t (ix2 a b) = V m c (Pipeline.arrRef spec0 9) (ix2 a b) := by
  have hemb : ((cfg0.win 9).blk t).view.emb (ix2 a b) = ix2 a b := by
    obtain ⟨e0, e1⟩ := (idx_facts_w t).2.2.2.2.2.2.2.1
    funext d; apply Fin.ext
    match d with
    | ⟨0, _⟩ => show win0_9.index t (0 : Fin 2) * 1 + 1 * a.val = a.val; omega
    | ⟨1, _⟩ => show win0_9.index t (1 : Fin 2) * 128 + 1 * b.val = b.val; omega
  unfold iblk
  rw [View.read_apply, hemb]
  exact cast_eq _ _

theorem blk10 (c : Dev nD) (t : Fin cfg0.N) (a : Fin 256) (b : Fin 128) :
    iblk m c 10 t (ix2 a b) = V m c (Pipeline.arrRef spec0 10) (ix2 a b) := by
  have hemb : ((cfg0.win 10).blk t).view.emb (ix2 a b) = ix2 a b := by
    obtain ⟨e0, e1⟩ := (idx_facts_w t).2.2.2.2.2.2.2.2.1
    funext d; apply Fin.ext
    match d with
    | ⟨0, _⟩ => show win0_10.index t (0 : Fin 2) * 256 + 1 * a.val = a.val; omega
    | ⟨1, _⟩ => show win0_10.index t (1 : Fin 2) * 128 + 1 * b.val = b.val; omega
  unfold iblk
  rw [View.read_apply, hemb]
  exact cast_eq _ _

theorem blk11 (c : Dev nD) (t : Fin cfg0.N) (a : Fin 1) (b : Fin 128) :
    iblk m c 11 t (ix2 a b) = V m c (Pipeline.arrRef spec0 11) (ix2 a b) := by
  have hemb : ((cfg0.win 11).blk t).view.emb (ix2 a b) = ix2 a b := by
    obtain ⟨e0, e1⟩ := (idx_facts_w t).2.2.2.2.2.2.2.2.2.1
    funext d; apply Fin.ext
    match d with
    | ⟨0, _⟩ => show win0_11.index t (0 : Fin 2) * 1 + 1 * a.val = a.val; omega
    | ⟨1, _⟩ => show win0_11.index t (1 : Fin 2) * 128 + 1 * b.val = b.val; omega
  unfold iblk
  rw [View.read_apply, hemb]
  exact cast_eq _ _

theorem blk12 (c : Dev nD) (t : Fin cfg0.N) (a : Fin 128) (b : Fin 128) :
    iblk m c 12 t (ix2 a b) = V m c (Pipeline.arrRef spec0 12) (ix2 a b) := by
  have hemb : ((cfg0.win 12).blk t).view.emb (ix2 a b) = ix2 a b := by
    obtain ⟨e0, e1⟩ := (idx_facts_w t).2.2.2.2.2.2.2.2.2.2.1
    funext d; apply Fin.ext
    match d with
    | ⟨0, _⟩ => show win0_12.index t (0 : Fin 2) * 128 + 1 * a.val = a.val; omega
    | ⟨1, _⟩ => show win0_12.index t (1 : Fin 2) * 128 + 1 * b.val = b.val; omega
  unfold iblk
  rw [View.read_apply, hemb]
  exact cast_eq _ _

theorem blk13 (c : Dev nD) (t : Fin cfg0.N) (a : Fin 1) (b : Fin 128) :
    iblk m c 13 t (ix2 a b) = V m c (Pipeline.arrRef spec0 13) (ix2 a b) := by
  have hemb : ((cfg0.win 13).blk t).view.emb (ix2 a b) = ix2 a b := by
    obtain ⟨e0, e1⟩ := (idx_facts_w t).2.2.2.2.2.2.2.2.2.2.2
    funext d; apply Fin.ext
    match d with
    | ⟨0, _⟩ => show win0_13.index t (0 : Fin 2) * 1 + 1 * a.val = a.val; omega
    | ⟨1, _⟩ => show win0_13.index t (1 : Fin 2) * 128 + 1 * b.val = b.val; omega
  unfold iblk
  rw [View.read_apply, hemb]
  exact cast_eq _ _

end Cert.KernelIdeal.Arr

end
-- ==== Proof.MsgSpec.lean ====
/- The message array of the layer as one function of the two gathered arrays and the twelve weight arguments as
   the programs receive them (the biases as vectors): entry `(e, d)` is coordinate `d` of the message of rows `e`. -/
import proofs.«418441_j41128606827044_1_alg».proof.Proof.Spec

noncomputable section

namespace Cert.EdgeSpec

open Idealize.ShloMosaic Idealize.ShloMosaic.ValueIdx

/-- The message array over the gathered rows and the weights. -/
def msgOfArgs (HI HJ : (⟨2, ![640000, 128]⟩ : Shape).Idx → EReal)
    (vw1 : (⟨2, ![256, 128]⟩ : Shape).Idx → EReal) (vb1 : (⟨1, ![128]⟩ : Shape).Idx → EReal)
    (vw2 : (⟨2, ![128, 1]⟩ : Shape).Idx → EReal) (vb2 : (⟨1, ![1]⟩ : Shape).Idx → EReal)
    (pw1 : (⟨2, ![128, 128]⟩ : Shape).Idx → EReal) (pb1 : (⟨1, ![128]⟩ : Shape).Idx → EReal)
    (pw2 : (⟨2, ![128, 128]⟩ : Shape).Idx → EReal) (pb2 : (⟨1, ![128]⟩ : Shape).Idx → EReal)
    (fw1 : (⟨2, ![256, 128]⟩ : Shape).Idx → EReal) (fb1 : (⟨1, ![128]⟩ : Shape).Idx → EReal)
    (fw2 : (⟨2, ![128, 128]⟩ : Shape).Idx → EReal) (fb2 : (⟨1, ![128]⟩ : Shape).Idx → EReal) :
    (⟨2, ![640000, 128]⟩ : Shape).Idx → EReal :=
  fun i => edgeMsg (fun k => HI (ix2 (i 0) k)) (fun k => HJ (ix2 (i 0) k))
    (fun k j => vw1 (ix2 k j)) (fun j => vb1 (ix1 j)) (fun j => vw2 (ix2 j 0)) (vb2 (ix1 0))
    (fun k j => pw1 (ix2 k j)) (fun j => pb1 (ix1 j)) (fun k j => pw2 (ix2 k j)) (fun j => pb2 (ix1 j))
    (fun k j => fw1 (ix2 k j)) (fun j => fb1 (ix1 j)) (fun k j => fw2 (ix2 k j)) (fun j => fb2 (ix1 j)) (i 1)

/-- The message depends on its rows and weights only through their values. -/
theorem edgeMsg_congr {a a' b b' : Fin 128 → EReal}
    {vw1 vw1' : Fin 256 → Fin 128 → EReal} {vb1 vb1' : Fin 128 → EReal} {vw2 vw2' : Fin 128 → EReal} {vb2 vb2' : EReal}
    {pw1 pw1' : Fin 128 → Fin 128 → EReal} {pb1 pb1' : Fin 128 → EReal} {pw2 pw2' : Fin 128 → Fin 128 → EReal} {pb2 pb2' : Fin 128 → EReal}
    {fw1 fw1' : Fin 256 → Fin 128 → EReal} {fb1 fb1' : Fin 128 → EReal} {fw2 fw2' : Fin 128 → Fin 128 → EReal} {fb2 fb2' : Fin 128 → EReal}
    (ha : ∀ k, a k = a' k) (hb : ∀ k, b k = b' k)
    (h2 : ∀ k j, vw1 k j = vw1' k j) (h3 : ∀ j, vb1 j = vb1' j) (h4 : ∀ j, vw2 j = vw2' j) (h5 : vb2 = vb2')
    (h6 : ∀ k j, pw1 k j = pw1' k j) (h7 : ∀ j, pb1 j = pb1' j) (h8 : ∀ k j, pw2 k j = pw2' k j) (h9 : ∀ j, pb2 j = pb2' j)
    (h10 : ∀ k j, fw1 k j = fw1' k j) (h11 : ∀ j, fb1 j = fb1' j) (h12 : ∀ k j, fw2 k j = fw2' k j) (h13 : ∀ j, fb2 j = fb2' j)
    (d : Fin 128) :
    edgeMsg a b vw1 vb1 vw2 vb2 pw1 pb1 pw2 pb2 fw1 fb1 fw2 fb2 d
      = edgeMsg a' b' vw1' vb1' vw2' vb2' pw1' pb1' pw2' pb2' fw1' fb1' fw2' fb2' d := by
  obtain rfl : a = a' := funext ha
  obtain rfl : b = b' := funext hb
  obtain rfl : vw1 = vw1' := funext fun k => funext (h2 k)
  obtain rfl : vb1 = vb1' := funext h3
  obtain rfl : vw2 = vw2' := funext h4
  obtain rfl := h5
  obtain rfl : pw1 = pw1' := funext fun k => funext (h6 k)
  obtain rfl : pb1 = pb1' := funext h7
  obtain rfl : pw2 = pw2' := funext fun k => funext (h8 k)
  obtain rfl : pb2 = pb2' := funext h9
  obtain rfl : fw1 = fw1' := funext fun k => funext (h10 k)
  obtain rfl : fb1 = fb1' := funext h11
  obtain rfl : fw2 = fw2' := funext fun k => funext (h12 k)
  obtain rfl : fb2 = fb2' := funext h13
  rfl

end Cert.EdgeSpec

end
-- ==== Proof.KernelFinal.lean ====
/- What a grid point writes back, that the 320 blocks cover the message array, and the array after the region. -/
import proofs.«418441_j41128606827044_1_alg».proof.Proof.KernelArray
import proofs.«418441_j41128606827044_1_alg».proof.Proof.MsgSpec

set_option maxRecDepth 16384

noncomputable section

namespace Cert.KernelIdeal.Arr

open Idealize.ShloMosaic Idealize.ShloMosaic.TcCoe Idealize.SL.Sem Idealize.ShloMosaic.ValueIdx
open Cert.KernelIdeal Cert.KernelIdeal.Gen Cert.EdgeSpec
open Idealize.ShloMosaic.Pipeline (Dat Cfg Window)

variable (m : (ℓ : Loc nD τ sig) → Buf (Elt Ideal) ℓ)

/-! ## What a point writes back, the cover, the array -/

/-- The message array over the arrays the region finds. -/
abbrev found (c : Dev nD) : Vec Ideal S640000x128 .f32 :=
  msgArr (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7)) (V m c (Pipeline.arrRef spec0 8))
    (V m c (Pipeline.arrRef spec0 9)) (V m c (Pipeline.arrRef spec0 10)) (V m c (Pipeline.arrRef spec0 11))
    (V m c (Pipeline.arrRef spec0 12)) (V m c (Pipeline.arrRef spec0 13))

/-- Entry `(p, q)` of point `t`'s output block lies at row `2000 t + p` of the message array. -/
theorem emb14 (t : Fin cfg0.N) (p : Fin 2000) (q : Fin 128) (e : Fin 640000) (he : e.val = t.val * 2000 + p.val) :
    ((cfg0.win 14).blk t).view.emb (ix2 p q) = ix2 e q := by
  obtain ⟨e0, e1⟩ : win0_14.index t (0 : Fin 2) = t.val ∧ win0_14.index t (1 : Fin 2) = 0 := (idx_facts t).2.2.2.2
  funext d; apply Fin.ext
  match d with
  | ⟨0, _⟩ => show win0_14.index t (0 : Fin 2) * 2000 + 1 * p.val = e.val; omega
  | ⟨1, _⟩ => show win0_14.index t (1 : Fin 2) * 128 + 1 * q.val = q.val; omega

/-- WHAT POINT `t` WRITES BACK is block `t` of the message array over the arrays the region finds. -/
theorem flushed_eq (c : Dev nD) (t : Fin cfg0.N) :
    (dats m 0 c).flushed 14 t = ((cfg0.win 14).blk t).view.read (Elt Ideal) (found m c) := by
  show (cfg0.win 14).cut (grid0.coords t) ((dats m 0 c).after 14 t) = _
  rw [after0_14]
  funext y
  obtain ⟨p, q, rfl⟩ : ∃ (p : Fin 2000) (q : Fin 128), y = ix2 p q := ⟨y 0, y 1, eq_ix2 y⟩
  have hlt : t.val * 2000 + p.val < 640000 := by
    have h1 : t.val < 320 := Nat.lt_of_lt_of_eq t.isLt N_0
    have h2 := p.isLt
    omega
  obtain ⟨e, he⟩ : ∃ e : Fin 640000, e.val = t.val * 2000 + p.val := ⟨⟨_, hlt⟩, rfl⟩
  rw [View.read_apply, emb14 t p q e he]
  refine Eq.trans ?_ (cast_eq _ _).symm
  show out0_14 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (ix2 p q) = _
  refine (Body.out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) p q).trans ?_
  show _ = msgArr _ _ _ _ _ _ _ _ _ _ _ _ _ _ (ix2 e q)
  unfold msgArr
  exact edgeMsg_congr (fun k => blk0 m c t p k e he) (fun k => blk1 m c t p k e he)
    (fun k j => blk2 m c t k j) (fun j => blk3 m c t (0 : Fin 1) j) (fun j => blk4 m c t j (0 : Fin 1)) (blk5 m c t (0 : Fin 1) (0 : Fin 1))
    (fun k j => blk6 m c t k j) (fun j => blk7 m c t (0 : Fin 1) j) (fun k j => blk8 m c t k j) (fun j => blk9 m c t (0 : Fin 1) j)
    (fun k j => blk10 m c t k j) (fun j => blk11 m c t (0 : Fin 1) j) (fun k j => blk12 m c t k j) (fun j => blk13 m c t (0 : Fin 1) j) q

/-- An index of the message array is in point `t`'s block iff each coordinate is in the block's range on its axis. -/
theorem mem_blk (t : Fin cfg0.N) (i : S640000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v12).slice (win0_14.rect t)).set ↔ _
  rw [View.set_slice_whole, Rect.mem_set_unit]
  exact Iff.rfl

/-- Every row of the message array is in the block of the point `row / 2000`. -/
theorem cover (i : S640000x128.Idx) : ∃ t : Fin cfg0.N, (cfg0.win 14).flush t = true ∧ i ∈ ((cfg0.win 14).blk t).view.set := by
  have hi0 : (i 0).val < 640000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (show (i 0).val / 2000 < 320 by omega) N_0.symm⟩, rfl⟩
  obtain ⟨e0, e1⟩ : win0_14.index t (0 : Fin 2) = t.val ∧ win0_14.index t (1 : Fin 2) = 0 := (idx_facts t).2.2.2.2
  refine ⟨t, flush0_14 t, ?_⟩
  rw [mem_blk]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- THE MESSAGE ARRAY after the region: the message of rows `e` at every row `e`. -/
theorem final (c : Dev nD) : (dats m 0 c).arrAt 14 cfg0.N = found m c :=
  (dats m 0 c).arrAt_eq_of_cover 14 (found m c) (fun t _ => flushed_eq m c t) cover

end Cert.KernelIdeal.Arr

end
-- ==== Proof.KernelTail.lean ====
/- The host lines after the region, read back: they scatter-add the message array at the sources into zeros, scale
   by the step and add `h`.  One fixed function of `h`, the sources and the message array. -/
import proofs.«418441_j41128606827044_1_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- What the program does with the message array: aggregate at the sources, scale, add to `h`. -/
def tail (h : Vec Ideal S50000x128 .f32) (seg : IVec S640000 32) (M : Vec Ideal S640000x128 .f32) : Vec Ideal S50000x128 .f32 :=
  addf h (mulf (broadcastInDim S50000x128 ![] bcast_S_S50000x128 (constant (F := Ideal) S_ .f32 0x3CF5C28F#32))
    (Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 seg) M))

/-- The program's result buffer after the lines that follow the region: `tail` of `h` as launched, of the sources
    as the region found them, and of the message array as the region left it. -/
theorem tail_eq (c : Dev nD) :
    Pipeline.afterTail₀ cfgs (dats m) 0 (V0 m) [hostOps1] c main_v18
      = tail (m ((c : Thread nD τ).loc main_arg0)) (V m c main_v1) ((dats m 0 c).arrAt 14 cfg0.N) := by
  unfold Pipeline.afterTail₀
  show StableHlo.after hostOps1 (Pipeline.withArrays spec0 c (V0 m c) (fun w => (dats m 0 c).arrAt w cfg0.N))
      (Proc.devRef .tc main_v18) = _
  have h12 : Pipeline.withArrays spec0 c (V0 m c) (fun w => (dats m 0 c).arrAt w cfg0.N) (Proc.devRef .tc main_v12)
      = (dats m 0 c).arrAt 14 cfg0.N :=
    Pipeline.withArrays_arr spec0 winFacts0.arr_inj c _ _ 14
  have h0 : Pipeline.withArrays spec0 c (V0 m c) (fun w => (dats m 0 c).arrAt w cfg0.N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays spec0 c (V0 m c) (fun w => (dats m 0 c).arrAt w cfg0.N) (Proc.devRef .tc main_v1)
      = V m c main_v1 :=
    Pipeline.withArrays_of_ne _ c (V0 m c) _ main_v1 (by exact (by decide : ∀ w, Pipeline.arrRef spec0 w ≠ main_v1))
  generalize Pipeline.withArrays spec0 c (V0 m c) (fun w => (dats m 0 c).arrAt w cfg0.N) = W at h12 h0 h1 ⊢
  after_results
  rw [h12, h0, h1]
  rfl

end Cert.KernelIdeal.Tail

end
-- ==== Proof.LibMaskAll.lean ====
/- Masks that are true everywhere.  A `jnp.take` in fill mode selects, entry by entry, between the gathered value and a
   fill, by a mask that says the index was in range; when every index is in range the mask is 1 everywhere and the
   selection is the gathered array.  The facts below are the generic half of that: a reduction by `and` of an array
   of ones is one, a selection by an all-ones (all-zeros) mask is its first (second) branch, and what the three signed
   comparisons answer for a 32-bit word known to lie in `[0, N)`. -/
import Idealize.ShloMosaic.Lib.ReduceAll
import Idealize.ShloMosaic.PureOps.Reduce

namespace Idealize.ShloMosaic

namespace IntOp

/-- A left fold by `and` from 1 over words that are all 1 is 1. -/
theorem foldl_andi_of_all_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all_one f l fun n hn => h n (List.mem_cons_of_mem _ hn)

/-- A comparison word is 0 or 1. -/
theorem cmpi_eq_zero_of_ne_one {w : Nat} (p : CmpIPredicate) (x y : BitVec w) (h : cmpi p x y ≠ 1#1) : cmpi p x y = 0#1 := by
  generalize cmpi p x y = c at h
  revert c; decide

end IntOp

namespace Host

variable {s t u : Shape} {axes : List (Fin s.rank)}

/-- A `stablehlo.reduce` by `and`, from an initial value of ones, of an array of ones is one at every result index. -/
theorem reduce_andi_of_all_one (x : s.Idx → BitVec 1) (init : u.Idx → BitVec 1) (h : s.ReducesTo axes t) (hu : 0 < u.numel)
    (j : t.Idx) (hinit : ∀ k, init k = 1#1) (hx : ∀ i, x i = 1#1) : Host.reduce IntOp.andi x init h hu j = 1#1 := by
  rw [Host.reduce_eq_foldl, hinit]
  exact IntOp.foldl_andi_of_all_one x _ fun n _ => hx n

end Host

/-- A selection by a mask that is 1 everywhere is its first branch. -/
theorem select_of_all_one {s : Shape} {α : Type} (c : IVec s 1) (a b : s.Idx → α) (hc : ∀ i, c i = 1#1) : select c a b = a := by
  funext i
  show Scalar.select (c i) (a i) (b i) = a i
  rw [hc i]; rfl

/-- A selection by a mask that is 1 nowhere is its second branch. -/
theorem select_of_all_not_one {s : Shape} {α : Type} (c : IVec s 1) (a b : s.Idx → α) (hc : ∀ i, c i ≠ 1#1) : select c a b = b := by
  funext i
  show Scalar.select (c i) (a i) (b i) = b i
  unfold Scalar.select
  exact if_neg (hc i)

end Idealize.ShloMosaic
-- ==== Proof.KernelHost.lean ====
/- The host lines before the region, read back.  They slice the edge list into its row of sources and its row of
   targets, gather the rows of `h` at each (a `jnp.take` in fill mode: negative indices wrap once, and an index still
   out of range reads a fill value instead of a row), and lay each bias out as a one-row array.  With every index a
   node number the wrap does nothing and no fill is read: each take is the plain gather of rows. -/
import proofs.«418441_j41128606827044_1_alg».proof.Proof.Gen.KernelIdeal.Frame
import proofs.«418441_j41128606827044_1_alg».proof.Proof.LibMaskAll
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.HostPre

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The sources of the edges: row 0 of the edge list, as a flat array. -/
def rowOf (x1 : IVec S2x640000 32) : IVec S640000 32 :=
  shapeCast S640000 (extractStridedSlice S1x640000 ![0, 0] x1 slices_S2x640000_S1x640000_0_0) shapeCasts_S1x640000_S640000

/-- The targets of the edges: row 1 of the edge list, as a flat array. -/
def colOf (x1 : IVec S2x640000 32) : IVec S640000 32 :=
  shapeCast S640000 (extractStridedSlice S1x640000 ![1, 0] x1 slices_S2x640000_S1x640000_1_0) shapeCasts_S1x640000_S640000

/-- The rows of `h` at the given node numbers. -/
def gatherRows (h : Vec Ideal S50000x128 .f32) (idx : IVec S640000 32) : Vec Ideal S640000x128 .f32 :=
  Host.gather gather_S50000x128_S640000x1_S640000x128_1_0_n_n_0_1_1128 h (broadcastInDim S640000x1 ![0] bcast_S640000_S640000x1_0 idx)

theorem rowOf_apply (x1 : IVec S2x640000 32) (e : Fin 640000) : rowOf x1 (ix1 e) = x1 (ix2 0 e) := by
  unfold rowOf
  rw [shapeCast_1a_a_apply]
  exact extractStridedSlice_apply ![0, 0] x1 slices_S2x640000_S1x640000_0_0 (ix2 (0 : Fin 1) e) (ix2 0 e) fun a =>
    match a with
    | ⟨0, _⟩ => rfl
    | ⟨1, _⟩ => by show e.val = 0 + e.val; omega

theorem colOf_apply (x1 : IVec S2x640000 32) (e : Fin 640000) : colOf x1 (ix1 e) = x1 (ix2 1 e) := by
  unfold colOf
  rw [shapeCast_1a_a_apply]
  exact extractStridedSlice_apply ![1, 0] x1 slices_S2x640000_S1x640000_1_0 (ix2 (0 : Fin 1) e) (ix2 1 e) fun a =>
    match a with
    | ⟨0, _⟩ => rfl
    | ⟨1, _⟩ => by show e.val = 0 + e.val; omega

/-! ### The host lines as four runs, one after the other -/

private theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => rw [List.cons_append, after_cons, after_cons, ih]

/-- The contents when the region is entered: the four runs in order, from the contents as launched. -/
private theorem V0_eq (c : Dev nD) :
    V0 m c = StableHlo.after hostOps0_3 (StableHlo.after hostOps0_2 (StableHlo.after hostOps0_1 (StableHlo.after hostOps0 (fun b => m (c, b))))) := by
  show StableHlo.after (List.flatten [hostOps0, hostOps0_1, hostOps0_2, hostOps0_3]) _ = _
  rw [List.flatten_cons, List.flatten_cons, List.flatten_cons, List.flatten_cons, List.flatten_nil, List.append_nil,
    after_append, after_append, after_append]

/-! ### A buffer a run does not write keeps its contents -/

private theorem run0_keep (W : Valuation τ sig (Elt Ideal)) (r : Ref sig .tc)
    (h : r ∉ [main_v0, main_v1, main_v2, main_v3]) :
    StableHlo.after hostOps0 W (Proc.devRef .tc r) = W (Proc.devRef .tc r) := by
  refine StableHlo.after_of_forall_not_mem _ _ (List.forall_iff_forall_mem.mp ?_)
  simp only [hostOps0, List.Forall, StableHlo.unary_writes, StableHlo.reshape_writes, Finset.mem_singleton]
  repeat' apply And.intro
  all_goals exact StableHlo.devRef_ne_of_ne (fun e => h (by rw [e]; decide))

private theorem run1_keep (W : Valuation τ sig (Elt Ideal)) (r : Ref sig .tc)
    (h : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]) :
    StableHlo.after hostOps0_1 W (Proc.devRef .tc r) = W (Proc.devRef .tc r) := by
  refine StableHlo.after_of_forall_not_mem _ _ (List.forall_iff_forall_mem.mp ?_)
  simp only [hostOps0_1, List.Forall, StableHlo.nullary_writes, StableHlo.unary_writes, StableHlo.binary_writes, StableHlo.ternary_writes, Finset.mem_singleton]
  repeat' apply And.intro
  all_goals exact StableHlo.devRef_ne_of_ne (fun e => h (by rw [e]; decide))

private theorem run2_keep (W : Valuation τ sig (Elt Ideal)) (r : Ref sig .tc)
    (h : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]) :
    StableHlo.after hostOps0_2 W (Proc.devRef .tc r) = W (Proc.devRef .tc r) := by
  refine StableHlo.after_of_forall_not_mem _ _ (List.forall_iff_forall_mem.mp ?_)
  simp only [hostOps0_2, List.Forall, StableHlo.nullary_writes, StableHlo.unary_writes, StableHlo.binary_writes, StableHlo.ternary_writes, Finset.mem_singleton]
  repeat' apply And.intro
  all_goals exact StableHlo.devRef_ne_of_ne (fun e => h (by rw [e]; decide))

private theorem run3_keep (W : Valuation τ sig (Elt Ideal)) (r : Ref sig .tc)
    (h : r ∉ [main_v6, main_v7, main_v8, main_v9, main_v10, main_v11]) :
    StableHlo.after hostOps0_3 W (Proc.devRef .tc r) = W (Proc.devRef .tc r) := by
  refine StableHlo.after_of_forall_not_mem _ _ (List.forall_iff_forall_mem.mp ?_)
  simp only [hostOps0_3, List.Forall, StableHlo.reshape_writes, Finset.mem_singleton]
  repeat' apply And.intro
  all_goals exact StableHlo.devRef_ne_of_ne (fun e => h (by rw [e]; decide))

/-! ### What the first run and the last leave -/

private theorem run0_v1 (W : Valuation τ sig (Elt Ideal)) :
    StableHlo.after hostOps0 W (Proc.devRef .tc main_v1) = rowOf (W (Proc.devRef .tc main_arg1)) := by
  simp only [hostOps0]
  after_results
  rfl

private theorem run0_v3 (W : Valuation τ sig (Elt Ideal)) :
    StableHlo.after hostOps0 W (Proc.devRef .tc main_v3) = colOf (W (Proc.devRef .tc main_arg1)) := by
  simp only [hostOps0]
  after_results
  rfl

private theorem run3_v6 (W : Valuation τ sig (Elt Ideal)) :
    StableHlo.after hostOps0_3 W (Proc.devRef .tc main_v6) = shapeCast S1x128 (W (Proc.devRef .tc main_arg3)) shapeCasts_S128_S1x128 := by
  simp only [hostOps0_3]
  after_results
  rfl

private theorem run3_v7 (W : Valuation τ sig (Elt Ideal)) :
    StableHlo.after hostOps0_3 W (Proc.devRef .tc main_v7) = shapeCast S1x1 (W (Proc.devRef .tc main_arg5)) shapeCasts_S1_S1x1 := by
  simp only [hostOps0_3]
  after_results
  rfl

private theorem run3_v8 (W : Valuation τ sig (Elt Ideal)) :
    StableHlo.after hostOps0_3 W (Proc.devRef .tc main_v8) = shapeCast S1x128 (W (Proc.devRef .tc main_arg7)) shapeCasts_S128_S1x128 := by
  simp only [hostOps0_3]
  after_results
  rfl

private theorem run3_v9 (W : Valuation τ sig (Elt Ideal)) :
    StableHlo.after hostOps0_3 W (Proc.devRef .tc main_v9) = shapeCast S1x128 (W (Proc.devRef .tc main_arg9)) shapeCasts_S128_S1x128 := by
  simp only [hostOps0_3]
  after_results
  rfl

private theorem run3_v10 (W : Valuation τ sig (Elt Ideal)) :
    StableHlo.after hostOps0_3 W (Proc.devRef .tc main_v10) = shapeCast S1x128 (W (Proc.devRef .tc main_arg11)) shapeCasts_S128_S1x128 := by
  simp only [hostOps0_3]
  after_results
  rfl

private theorem run3_v11 (W : Valuation τ sig (Elt Ideal)) :
    StableHlo.after hostOps0_3 W (Proc.devRef .tc main_v11) = shapeCast S1x128 (W (Proc.devRef .tc main_arg13)) shapeCasts_S128_S1x128 := by
  simp only [hostOps0_3]
  after_results
  rfl

/-! ### The windows' arrays are these buffers -/

private theorem arr0 : Pipeline.arrRef spec0 0 = main_v4 := rfl
private theorem arr1 : Pipeline.arrRef spec0 1 = main_v5 := rfl
private theorem arr3 : Pipeline.arrRef spec0 3 = main_v6 := rfl
private theorem arr5 : Pipeline.arrRef spec0 5 = main_v7 := rfl
private theorem arr7 : Pipeline.arrRef spec0 7 = main_v8 := rfl
private theorem arr9 : Pipeline.arrRef spec0 9 = main_v9 := rfl
private theorem arr11 : Pipeline.arrRef spec0 11 = main_v10 := rfl
private theorem arr13 : Pipeline.arrRef spec0 13 = main_v11 := rfl

/-- An argument the host lines before the last run do not write is as launched when the last run starts. -/
private theorem arg_kept (c : Dev nD) (r : Ref sig .tc)
    (h0 : r ∉ [main_v0, main_v1, main_v2, main_v3])
    (h1 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4])
    (h2 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]) :
    StableHlo.after hostOps0_2 (StableHlo.after hostOps0_1 (StableHlo.after hostOps0 (fun b => m (c, b)))) (Proc.devRef .tc r)
      = m (c, Proc.devRef .tc r) := by
  rw [run2_keep _ r h2, run1_keep _ r h1, run0_keep _ r h0]

private theorem V_v6 (c : Dev nD) : V m c main_v6 = shapeCast S1x128 (m ((c : Thread nD τ).loc main_arg3)) shapeCasts_S128_S1x128 := by
  show V0 m c (Proc.devRef .tc main_v6) = _
  rw [V0_eq, run3_v6, arg_kept m c main_arg3 (by decide) (by decide) (by decide)]

private theorem V_v7 (c : Dev nD) : V m c main_v7 = shapeCast S1x1 (m ((c : Thread nD τ).loc main_arg5)) shapeCasts_S1_S1x1 := by
  show V0 m c (Proc.devRef .tc main_v7) = _
  rw [V0_eq, run3_v7, arg_kept m c main_arg5 (by decide) (by decide) (by decide)]

private theorem V_v8 (c : Dev nD) : V m c main_v8 = shapeCast S1x128 (m ((c : Thread nD τ).loc main_arg7)) shapeCasts_S128_S1x128 := by
  show V0 m c (Proc.devRef .tc main_v8) = _
  rw [V0_eq, run3_v8, arg_kept m c main_arg7 (by decide) (by decide) (by decide)]

private theorem V_v9 (c : Dev nD) : V m c main_v9 = shapeCast S1x128 (m ((c : Thread nD τ).loc main_arg9)) shapeCasts_S128_S1x128 := by
  show V0 m c (Proc.devRef .tc main_v9) = _
  rw [V0_eq, run3_v9, arg_kept m c main_arg9 (by decide) (by decide) (by decide)]

private theorem V_v10 (c : Dev nD) : V m c main_v10 = shapeCast S1x128 (m ((c : Thread nD τ).loc main_arg11)) shapeCasts_S128_S1x128 := by
  show V0 m c (Proc.devRef .tc main_v10) = _
  rw [V0_eq, run3_v10, arg_kept m c main_arg11 (by decide) (by decide) (by decide)]

private theorem V_v11 (c : Dev nD) : V m c main_v11 = shapeCast S1x128 (m ((c : Thread nD τ).loc main_arg13)) shapeCasts_S128_S1x128 := by
  show V0 m c (Proc.devRef .tc main_v11) = _
  rw [V0_eq, run3_v11, arg_kept m c main_arg13 (by decide) (by decide) (by decide)]

/-! ### A take in fill mode of node numbers is the plain gather -/

/-- The index after the one wrap of negative values. -/
private def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

/-- The take as the host computes it: the rows at the wrapped indices where those are in range, a fill elsewhere. -/
private def takeFill (h : Vec Ideal S50000x128 .f32) (idx : IVec S640000 32) : Vec Ideal S640000x128 .f32 :=
  select
    (broadcastInDim S640000x128 ![0] bcast_S640000_S640000x128_0
      (Host.reduce IntOp.andi
        (andi
          (cmpi .sge (broadcastInDim S640000x1 ![0] bcast_S640000_S640000x1_0 (wrapIdx idx))
            (broadcastInDim S640000x1 ![] bcast_S_S640000x1 (constantI S_ 32 0#32)))
          (cmpi .sle (broadcastInDim S640000x1 ![0] bcast_S640000_S640000x1_0 (wrapIdx idx))
            (broadcastInDim S640000x1 ![0, 1] bcast_S1x1_S640000x1_0_1 (broadcastInDim S1x1 ![1] bcast_S1_S1x1_1 (constantI S1 32 49999#32)))))
        (constantI S_ 1 1#1) reducesTo_S640000x1_S640000_d1 h_S_))
    (Host.gather gather_S50000x128_S640000x1_S640000x128_1_0_n_n_0_1_1128 h
      (broadcastInDim S640000x1 ![0] bcast_S640000_S640000x1_0 (wrapIdx idx)))
    (broadcastInDim S640000x128 ![] bcast_S_S640000x128 (constant (F := Ideal) S_ .f32 0x7FC00000#32))

private theorem toInt_zero32 : (0#32 : BitVec 32).toInt = 0 := by decide
private theorem toInt_top32 : (49999#32 : BitVec 32).toInt = 49999 := by decide

/-- With every index a node number nothing wraps and nothing is filled. -/
private theorem takeFill_eq (h : Vec Ideal S50000x128 .f32) (idx : IVec S640000 32)
    (hidx : ∀ e, 0 ≤ (idx e).toInt ∧ (idx e).toInt < 50000) : takeFill h idx = gatherRows h idx := by
  have hw : wrapIdx idx = idx := select_of_all_not_one _ _ _ fun i hc => by
    have h1 : (idx i).toInt < (0#32 : BitVec 32).toInt := IntOp.cmpi_slt.mp hc
    have h2 := (hidx i).1
    rw [toInt_zero32] at h1
    omega
  unfold takeFill
  rw [hw]
  refine select_of_all_one _ _ _ fun i => ?_
  refine Host.reduce_andi_of_all_one _ _ _ _ _ (fun _ => rfl) fun k => ?_
  obtain ⟨h1, h2⟩ : 0 ≤ (broadcastInDim S640000x1 ![0] bcast_S640000_S640000x1_0 idx k).toInt
      ∧ (broadcastInDim S640000x1 ![0] bcast_S640000_S640000x1_0 idx k).toInt < 50000 := hidx _
  show IntOp.andi (IntOp.cmpi .sge (broadcastInDim S640000x1 ![0] bcast_S640000_S640000x1_0 idx k) (0#32 : BitVec 32))
      (IntOp.cmpi .sle (broadcastInDim S640000x1 ![0] bcast_S640000_S640000x1_0 idx k) (49999#32 : BitVec 32)) = 1#1
  refine IntOp.andi_eq_one.mpr ⟨IntOp.cmpi_sge.mpr ?_, IntOp.cmpi_sle.mpr ?_⟩
  · rw [toInt_zero32]; exact h1
  · rw [toInt_top32]; omega

/-! ### What the two takes leave -/

private theorem run1_v4 (W : Valuation τ sig (Elt Ideal)) :
    StableHlo.after hostOps0_1 W (Proc.devRef .tc main_v4)
      = takeFill (W (Proc.devRef .tc main_arg0)) (W (Proc.devRef .tc main_v1)) := by
  simp (disch := decide) only [hostOps0_1, after_cons, after_nil,
    nullary_result', unary_result', binary_result', ternary_result',
    nullary_result_ne', unary_result_ne', binary_result_ne', ternary_result_ne', cast_cast, cast_eq]
  rfl

private theorem run2_v5 (W : Valuation τ sig (Elt Ideal)) :
    StableHlo.after hostOps0_2 W (Proc.devRef .tc main_v5)
      = takeFill (W (Proc.devRef .tc main_arg0)) (W (Proc.devRef .tc main_v3)) := by
  simp (disch := decide) only [hostOps0_2, after_cons, after_nil,
    nullary_result', unary_result', binary_result', ternary_result',
    nullary_result_ne', unary_result_ne', binary_result_ne', ternary_result_ne', cast_cast, cast_eq]
  rfl

/-- Every source and every target is a node number when every entry of the edge list is. -/
private theorem rowOf_range (x1 : IVec S2x640000 32) (hr : ∀ i : S2x640000.Idx, 0 ≤ (x1 i).toInt ∧ (x1 i).toInt < 50000)
    (e : S640000.Idx) : 0 ≤ (rowOf x1 e).toInt ∧ (rowOf x1 e).toInt < 50000 := by
  obtain ⟨k, rfl⟩ : ∃ k : Fin 640000, e = ix1 k := ⟨e 0, eq_ix1 e⟩
  rw [rowOf_apply]
  exact hr _

private theorem colOf_range (x1 : IVec S2x640000 32) (hr : ∀ i : S2x640000.Idx, 0 ≤ (x1 i).toInt ∧ (x1 i).toInt < 50000)
    (e : S640000.Idx) : 0 ≤ (colOf x1 e).toInt ∧ (colOf x1 e).toInt < 50000 := by
  obtain ⟨k, rfl⟩ : ∃ k : Fin 640000, e = ix1 k := ⟨e 0, eq_ix1 e⟩
  rw [colOf_apply]
  exact hr _

/-- The tail's segment ids are the sources. -/
theorem V_row (c : Dev nD) : V m c main_v1 = rowOf (m ((c : Thread nD τ).loc main_arg1)) := by
  show V0 m c (Proc.devRef .tc main_v1) = _
  rw [V0_eq, run3_keep _ main_v1 (by decide), run2_keep _ main_v1 (by decide), run1_keep _ main_v1 (by decide), run0_v1]

/-- Window 0's array: the rows of `h` at the sources, when every entry of the edge list is a node number. -/
theorem V_hi (c : Dev nD)
    (hr : ∀ i : S2x640000.Idx, 0 ≤ (m ((c : Thread nD τ).loc main_arg1) i).toInt ∧ (m ((c : Thread nD τ).loc main_arg1) i).toInt < 50000) :
    V m c (Pipeline.arrRef spec0 0) = gatherRows (m ((c : Thread nD τ).loc main_arg0)) (rowOf (m ((c : Thread nD τ).loc main_arg1))) := by
  dsimp only [arr0]
  show V0 m c (Proc.devRef .tc main_v4) = _
  rw [V0_eq, run3_keep _ main_v4 (by decide), run2_keep _ main_v4 (by decide), run1_v4,
    run0_keep _ main_arg0 (by decide), run0_v1]
  exact takeFill_eq _ _ (rowOf_range _ hr)

/-- Window 1's array: the rows of `h` at the targets. -/
theorem V_hj (c : Dev nD)
    (hr : ∀ i : S2x640000.Idx, 0 ≤ (m ((c : Thread nD τ).loc main_arg1) i).toInt ∧ (m ((c : Thread nD τ).loc main_arg1) i).toInt < 50000) :
    V m c (Pipeline.arrRef spec0 1) = gatherRows (m ((c : Thread nD τ).loc main_arg0)) (colOf (m ((c : Thread nD τ).loc main_arg1))) := by
  dsimp only [arr1]
  show V0 m c (Proc.devRef .tc main_v5) = _
  rw [V0_eq, run3_keep _ main_v5 (by decide), run2_v5, run1_keep _ main_arg0 (by decide), run0_keep _ main_arg0 (by decide),
    run1_keep _ main_v3 (by decide), run0_v3]
  exact takeFill_eq _ _ (colOf_range _ hr)

/-- The six biases as the region finds them: one-row arrays holding the bias vectors. -/
theorem V_b3 (c : Dev nD) (j : Fin 128) : V m c (Pipeline.arrRef spec0 3) (ix2 0 j) = m ((c : Thread nD τ).loc main_arg3) (ix1 j) := by
  dsimp only [arr3]
  rw [V_v6]
  exact shapeCast_a_1a_apply _ _ 0 j
theorem V_b5 (c : Dev nD) : V m c (Pipeline.arrRef spec0 5) (ix2 0 0) = m ((c : Thread nD τ).loc main_arg5) (ix1 0) := by
  dsimp only [arr5]
  rw [V_v7]
  exact shapeCast_a_1a_apply _ _ 0 0
theorem V_b7 (c : Dev nD) (j : Fin 128) : V m c (Pipeline.arrRef spec0 7) (ix2 0 j) = m ((c : Thread nD τ).loc main_arg7) (ix1 j) := by
  dsimp only [arr7]
  rw [V_v8]
  exact shapeCast_a_1a_apply _ _ 0 j
theorem V_b9 (c : Dev nD) (j : Fin 128) : V m c (Pipeline.arrRef spec0 9) (ix2 0 j) = m ((c : Thread nD τ).loc main_arg9) (ix1 j) := by
  dsimp only [arr9]
  rw [V_v9]
  exact shapeCast_a_1a_apply _ _ 0 j
theorem V_b11 (c : Dev nD) (j : Fin 128) : V m c (Pipeline.arrRef spec0 11) (ix2 0 j) = m ((c : Thread nD τ).loc main_arg11) (ix1 j) := by
  dsimp only [arr11]
  rw [V_v10]
  exact shapeCast_a_1a_apply _ _ 0 j
theorem V_b13 (c : Dev nD) (j : Fin 128) : V m c (Pipeline.arrRef spec0 13) (ix2 0 j) = m ((c : Thread nD τ).loc main_arg13) (ix1 j) := by
  dsimp only [arr13]
  rw [V_v11]
  exact shapeCast_a_1a_apply _ _ 0 j

end Cert.KernelIdeal.HostPre

end
-- ==== Proof.KernelRun.lean ====
/- The kernel program's run, read: its result is `tail` of `h`, of the sources and of the message array over the
   rows of `h` gathered at the sources and at the targets, when every entry of the edge list is a node number. -/
import proofs.«418441_j41128606827044_1_alg».proof.Proof.KernelFinal
import proofs.«418441_j41128606827044_1_alg».proof.Proof.KernelTail
import proofs.«418441_j41128606827044_1_alg».proof.Proof.KernelHost
import proofs.«418441_j41128606827044_1_alg».proof.Proof.MsgSpec

set_option maxRecDepth 16384

noncomputable section

namespace Cert.KernelIdeal.Result

open Idealize.ShloMosaic Idealize.ShloMosaic.TcCoe Idealize.SL.Sem Idealize.ShloMosaic.ValueIdx
open Cert.KernelIdeal Cert.KernelIdeal.Gen Cert.EdgeSpec
open Idealize.ShloMosaic.Pipeline (Dat Cfg Window)

variable (m : (ℓ : Loc nD τ sig) → Buf (Elt Ideal) ℓ) (ρ : Dev nD → PrngReg)

/-- The message array over the program's arguments. -/
def msgs (c : Dev nD) : Vec Ideal S640000x128 .f32 :=
  msgOfArgs (HostPre.gatherRows (m ((c : Thread nD τ).loc main_arg0)) (HostPre.rowOf (m ((c : Thread nD τ).loc main_arg1))))
    (HostPre.gatherRows (m ((c : Thread nD τ).loc main_arg0)) (HostPre.colOf (m ((c : Thread nD τ).loc main_arg1))))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The program's result over its arguments. -/
def result (c : Dev nD) : Vec Ideal S50000x128 .f32 :=
  Tail.tail (m ((c : Thread nD τ).loc main_arg0)) (HostPre.rowOf (m ((c : Thread nD τ).loc main_arg1))) (msgs m c)

/-- The message array over the arrays the region finds is the message array over the arguments. -/
theorem found_eq (c : Dev nD)
    (hr : ∀ i : S2x640000.Idx, 0 ≤ (m ((c : Thread nD τ).loc main_arg1) i).toInt ∧ (m ((c : Thread nD τ).loc main_arg1) i).toInt < 50000) :
    Arr.found m c = msgs m c := by
  funext i
  show Arr.msgArr _ _ _ _ _ _ _ _ _ _ _ _ _ _ i = msgOfArgs _ _ _ _ _ _ _ _ _ _ _ _ _ _ i
  unfold Arr.msgArr msgOfArgs
  rw [HostPre.V_hi m c hr, HostPre.V_hj m c hr]
  exact edgeMsg_congr (fun _ => rfl) (fun _ => rfl)
    (fun k j => congrFun (V_main_arg2 m c) (ix2 k j)) (fun j => HostPre.V_b3 m c j)
    (fun j => congrFun (V_main_arg4 m c) (ix2 j 0)) (HostPre.V_b5 m c)
    (fun k j => congrFun (V_main_arg6 m c) (ix2 k j)) (fun j => HostPre.V_b7 m c j)
    (fun k j => congrFun (V_main_arg8 m c) (ix2 k j)) (fun j => HostPre.V_b9 m c j)
    (fun k j => congrFun (V_main_arg10 m c) (ix2 k j)) (fun j => HostPre.V_b11 m c j)
    (fun k j => congrFun (V_main_arg12 m c) (ix2 k j)) (fun j => HostPre.V_b13 m c j) (i 1)

/-- The frame run re-posted: the result at `result`, the arguments unchanged. -/
theorem run
    (hr : ∀ (c : Dev nD) (i : S2x640000.Idx), 0 ≤ (m ((c : Thread nD τ).loc main_arg1) i).toInt ∧ (m ((c : Thread nD τ).loc main_arg1) i).toInt < 50000) :
    θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      ((h c).2 main_v18 (Pipeline.mem_restRefs_of main_v18 (by decide) (by decide))).trans
        ((Tail.tail_eq m c).trans (by rw [HostPre.V_row m c, Arr.final m c, found_eq m c (hr c)]; rfl)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c))⟩)
    (run_main m ρ)

end Cert.KernelIdeal.Result

end
-- ==== Proof.RefHost.lean ====
/- The reference's host lines around its message array, read back.  With every entry of the edge list a node number
   the index normalisation before each gather (a negative index wraps once) does nothing, so each gather reads the
   rows of `h` at the sources (the targets) themselves; and the lines after the message array are one fixed function
   of `h`, the sources and the message array: scatter-add the messages at the sources into zeros, scale by the
   step, add `h`. -/
import proofs.«418441_j41128606827044_1_alg».proof.Proof.Gen.ReferenceIdeal.Read
import proofs.«418441_j41128606827044_1_alg».proof.Proof.LibMaskAll
import Idealize.ShloMosaic.Lib.ValueIdx
import Idealize.ShloMosaic.Lib.Pipeline.Value
import Idealize.ShloMosaic.PureOps.Ideal
import Idealize.ShloMosaic.Lib.Affine

noncomputable section

namespace Cert.ReferenceIdeal.HostPre

open Idealize.ShloMosaic Idealize.ShloMosaic.ValueIdx Cert.ReferenceIdeal Cert.ReferenceIdeal.Gen Cert.ReferenceIdeal.Read

/-- Row 0 of the edge list, at edge `e`. -/
private theorem v1_ix1 (x1 : (⟨S2x640000, .i32⟩ : BufTy).Contents (Elt Ideal)) (e : Fin 640000) :
    val_main_v1 (F := Ideal) x1 (ix1 e) = x1 (ix2 0 e) := by
  have hi : idx_main_v0 (idx_main_v1 (ix1 e)) = ix2 0 e := funext fun a => Fin.ext (by
    match a with
    | ⟨0, _⟩ => rfl
    | ⟨1, _⟩ => exact Nat.mod_eq_of_lt e.isLt)
  rw [val_main_v1_apply, val_main_v0_apply, hi]

/-- Row 1 of the edge list, at edge `e`. -/
private theorem v3_ix1 (x1 : (⟨S2x640000, .i32⟩ : BufTy).Contents (Elt Ideal)) (e : Fin 640000) :
    val_main_v3 (F := Ideal) x1 (ix1 e) = x1 (ix2 1 e) := by
  have hi : idx_main_v2 (idx_main_v3 (ix1 e)) = ix2 1 e := funext fun a => Fin.ext (by
    match a with
    | ⟨0, _⟩ => rfl
    | ⟨1, _⟩ => exact Nat.mod_eq_of_lt e.isLt)
  rw [val_main_v3_apply, val_main_v2_apply, hi]

/-- A source that is a node number is not negative: the wrap's comparison is 1 nowhere. -/
private theorem v5_ne_one (x1 : (⟨S2x640000, .i32⟩ : BufTy).Contents (Elt Ideal))
    (hr : ∀ i : S2x640000.Idx, 0 ≤ (x1 i).toInt ∧ (x1 i).toInt < 50000) (i : S640000.Idx) :
    val_main_v5 (F := Ideal) x1 i ≠ 1#1 := by
  intro hi
  have h1 : val_main_v1 (F := Ideal) x1 i = x1 (ix2 0 (i 0)) :=
    (congrArg (val_main_v1 (F := Ideal) x1) (eq_ix1 (n := 640000) i)).trans (v1_ix1 x1 (i 0))
  rw [val_main_v5_apply, IntOp.cmpi_slt, val_main_v4_apply, val_main_c_apply, h1,
    show (0#32 : BitVec 32).toInt = 0 from by decide] at hi
  have := (hr (ix2 0 (i 0))).1
  omega

/-- A target that is a node number is not negative: the wrap's comparison is 1 nowhere. -/
private theorem v12_ne_one (x1 : (⟨S2x640000, .i32⟩ : BufTy).Contents (Elt Ideal))
    (hr : ∀ i : S2x640000.Idx, 0 ≤ (x1 i).toInt ∧ (x1 i).toInt < 50000) (i : S640000.Idx) :
    val_main_v12 (F := Ideal) x1 i ≠ 1#1 := by
  intro hi
  have h3 : val_main_v3 (F := Ideal) x1 i = x1 (ix2 1 (i 0)) :=
    (congrArg (val_main_v3 (F := Ideal) x1) (eq_ix1 (n := 640000) i)).trans (v3_ix1 x1 (i 0))
  rw [val_main_v12_apply, IntOp.cmpi_slt, val_main_v11_apply, val_main_c_1_apply, h3,
    show (0#32 : BitVec 32).toInt = 0 from by decide] at hi
  have := (hr (ix2 1 (i 0))).1
  omega

/-- The first gather reads the rows of `h` at the sources. -/
theorem v10_eq (x0 : (⟨S50000x128, .f32⟩ : BufTy).Contents (Elt Ideal)) (x1 : (⟨S2x640000, .i32⟩ : BufTy).Contents (Elt Ideal))
    (hr : ∀ i : S2x640000.Idx, 0 ≤ (x1 i).toInt ∧ (x1 i).toInt < 50000) :
    val_main_v10 (F := Ideal) x0 x1 = Host.gather gather_S50000x128_S640000x1_S640000x128_1_0_n_n_0_1_1128 x0
      (broadcastInDim S640000x1 ![0] bcast_S640000_S640000x1_0 (val_main_v1 (F := Ideal) x1)) := by
  unfold val_main_v10 val_main_v9 val_main_v8
  rw [select_of_all_not_one _ _ _ (v5_ne_one x1 hr)]

/-- The second gather reads the rows of `h` at the targets. -/
theorem v17_eq (x0 : (⟨S50000x128, .f32⟩ : BufTy).Contents (Elt Ideal)) (x1 : (⟨S2x640000, .i32⟩ : BufTy).Contents (Elt Ideal))
    (hr : ∀ i : S2x640000.Idx, 0 ≤ (x1 i).toInt ∧ (x1 i).toInt < 50000) :
    val_main_v17 (F := Ideal) x0 x1 = Host.gather gather_S50000x128_S640000x1_S640000x128_1_0_n_n_0_1_1128 x0
      (broadcastInDim S640000x1 ![0] bcast_S640000_S640000x1_0 (val_main_v3 (F := Ideal) x1)) := by
  unfold val_main_v17 val_main_v16 val_main_v15
  rw [select_of_all_not_one _ _ _ (v12_ne_one x1 hr)]

theorem v1_at (x1 : (⟨S2x640000, .i32⟩ : BufTy).Contents (Elt Ideal)) (e : Fin 640000) : val_main_v1 (F := Ideal) x1 (ix1 e) = x1 (ix2 0 e) := by
  exact v1_ix1 x1 e

theorem v3_at (x1 : (⟨S2x640000, .i32⟩ : BufTy).Contents (Elt Ideal)) (e : Fin 640000) : val_main_v3 (F := Ideal) x1 (ix1 e) = x1 (ix2 1 e) := by
  exact v3_ix1 x1 e

/-- What the program does with the message array: aggregate at the sources, scale, add to `h`. -/
def tail (h : (⟨S50000x128, .f32⟩ : BufTy).Contents (Elt Ideal)) (seg : (⟨S640000, .i32⟩ : BufTy).Contents (Elt Ideal))
    (M : (⟨S640000x128, .f32⟩ : BufTy).Contents (Elt Ideal)) : (⟨S50000x128, .f32⟩ : BufTy).Contents (Elt Ideal) :=
  addf h (mulf (broadcastInDim S50000x128 ![] bcast_S_S50000x128 (constant (F := Ideal) S_ .f32 0x3CF5C28F#32))
    (Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 seg) M))

/-- The reference's result is that function of `h`, its sources and its message array. -/
theorem v57_eq (x0 : (⟨S50000x128, .f32⟩ : BufTy).Contents (Elt Ideal)) (x1 : (⟨S2x640000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    val_main_v57 (F := Ideal) x0 x1 x2 x3 x4 x5 x6 x7 x8 x9 x10 x11 x12 x13 =
      tail x0 (val_main_v1 (F := Ideal) x1) (val_main_v51 (F := Ideal) x0 x1 x2 x3 x4 x5 x6 x7 x8 x9 x10 x11 x12 x13) := by
  rfl

end Cert.ReferenceIdeal.HostPre

end
-- ==== Proof.RefMsg.lean ====
/- The reference's message array, read at one entry: entry `(e, d)` is coordinate `d` of the message of the two rows
   its two gathers produced for edge `e`. -/
import proofs.«418441_j41128606827044_1_alg».proof.Proof.Gen.ReferenceIdeal.Read
import proofs.«418441_j41128606827044_1_alg».proof.Proof.Spec
import Idealize.ShloMosaic.Lib.ValueIdx
import Idealize.ShloMosaic.Lib.Pipeline.Value
import Idealize.ShloMosaic.PureOps.Ideal.Laws

noncomputable section

namespace Cert.ReferenceIdeal.Msg

open Idealize.ShloMosaic Idealize.ShloMosaic.ValueIdx Cert.ReferenceIdeal Cert.ReferenceIdeal.Read Cert.EdgeSpec
open scoped BigOperators

/-- The concatenated array at `(e, k)`: the two gathered rows `e` laid side by side, at `k`. -/
private theorem cat_apply (x0 : (⟨S50000x128, .f32⟩ : BufTy).Contents (Elt Ideal)) (x1 : (⟨S2x640000, .i32⟩ : BufTy).Contents (Elt Ideal))
    (e : Fin 640000) (k : Fin 256) :
    val_main_v18 (F := Ideal) x0 x1 (ix2 e k) =
      cat (fun k => val_main_v10 (F := Ideal) x0 x1 (ix2 e k)) (fun k => val_main_v17 (F := Ideal) x0 x1 (ix2 e k)) k := by
  unfold val_main_v18 cat
  generalize val_main_v10 (F := Ideal) x0 x1 = y10
  generalize val_main_v17 (F := Ideal) x0 x1 = y17
  by_cases h : k.val < 128
  · rw [dif_pos h]
    exact concatenate_pair_apply_left (t := S640000x256) (s₁ := S640000x128) (s₂ := S640000x128) 1 y10 y17 _ _ rfl _ (fun b => by
      match b with
      | ⟨0, _⟩ => rfl
      | ⟨1, _⟩ => rfl)
  · rw [dif_neg h]
    exact concatenate_pair_apply_right (t := S640000x256) (s₁ := S640000x128) (s₂ := S640000x128) 1 y10 y17 _ _ rfl rfl _
      (fun b hb => by
        match b with
        | ⟨0, _⟩ => rfl
        | ⟨1, _⟩ => exact absurd rfl hb)
      (by show (k.val - 128) + 128 = k.val; omega)

section Layers

variable (x0 : (⟨S50000x128, .f32⟩ : BufTy).Contents (Elt Ideal)) (x1 : (⟨S2x640000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (e : Fin 640000)

/-- The viscosity's first layer before its `tanh`, at `(e, j)`. -/
private theorem v22_apply (j : Fin 128) :
    val_main_v22 (F := Ideal) x0 x1 x2 x3 (ix2 e j) =
      dense (cat (fun k => val_main_v10 (F := Ideal) x0 x1 (ix2 e k)) (fun k => val_main_v17 (F := Ideal) x0 x1 (ix2 e k)))
        (fun k j => x2 (ix2 k j)) (fun j => x3 (ix1 j)) j := by
  have hl : ∀ k : Fin 256, lidx_main_v19 (ix2 e j) k = ix2 e k := fun k => funext fun a => by
    match a with
    | ⟨0, _⟩ => rfl
    | ⟨1, _⟩ => rfl
  have hr : ∀ k : Fin 256, ridx_main_v19 (ix2 e j) k = ix2 k j := fun k => funext fun a => by
    match a with
    | ⟨0, _⟩ => rfl
    | ⟨1, _⟩ => rfl
  have hb : idx_main_v20 (idx_main_v21 (ix2 e j)) = ix1 j := funext fun a => by
    match a with
    | ⟨0, _⟩ => rfl
  rw [val_main_v22_apply, val_main_v19_apply, val_main_v21_apply, val_main_v20_apply, Ideal.addf_def, hb]
  unfold dense
  refine congrArg (· + x3 (ix1 j)) (Finset.sum_congr rfl fun k _ => ?_)
  rw [hl, hr, cat_apply]

/-- The viscosity of edge `e`: the one entry of row `e` of the reference's [640000, 1] array. -/
private theorem v27_apply :
    val_main_v27 (F := Ideal) x0 x1 x2 x3 x4 x5 (ix2 e 0) =
      nu (fun k => val_main_v10 (F := Ideal) x0 x1 (ix2 e k)) (fun k => val_main_v17 (F := Ideal) x0 x1 (ix2 e k))
        (fun k j => x2 (ix2 k j)) (fun j => x3 (ix1 j)) (fun j => x4 (ix2 j 0)) (x5 (ix1 0)) := by
  have hl : ∀ k : Fin 128, lidx_main_v24 (ix2 e 0) k = ix2 e k := fun k => funext fun a => by
    match a with
    | ⟨0, _⟩ => rfl
    | ⟨1, _⟩ => rfl
  have hr : ∀ k : Fin 128, ridx_main_v24 (ix2 e 0) k = ix2 k 0 := fun k => funext fun a => by
    match a with
    | ⟨0, _⟩ => rfl
    | ⟨1, _⟩ => rfl
  have hb : idx_main_v25 (idx_main_v26 (ix2 e 0)) = ix1 0 := funext fun a => by
    match a with
    | ⟨0, _⟩ => rfl
  rw [val_main_v27_apply, val_main_v24_apply, val_main_v26_apply, val_main_v25_apply, Ideal.addf_def, hb]
  unfold nu
  refine congrArg (· + x5 (ix1 0)) (Finset.sum_congr rfl fun k _ => ?_)
  rw [hl, hr, val_main_v23_apply, Ideal.hostUnary_tanh_def, v22_apply]

/-- The force's first layer before its rectifier, at `(e, j)`. -/
private theorem v34_apply (j : Fin 128) :
    val_main_v34 (F := Ideal) x0 x1 x10 x11 (ix2 e j) =
      dense (cat (fun k => val_main_v10 (F := Ideal) x0 x1 (ix2 e k)) (fun k => val_main_v17 (F := Ideal) x0 x1 (ix2 e k)))
        (fun k j => x10 (ix2 k j)) (fun j => x11 (ix1 j)) j := by
  have hl : ∀ k : Fin 256, lidx_main_v31 (ix2 e j) k = ix2 e k := fun k => funext fun a => by
    match a with
    | ⟨0, _⟩ => rfl
    | ⟨1, _⟩ => rfl
  have hr : ∀ k : Fin 256, ridx_main_v31 (ix2 e j) k = ix2 k j := fun k => funext fun a => by
    match a with
    | ⟨0, _⟩ => rfl
    | ⟨1, _⟩ => rfl
  have hb : idx_main_v32 (idx_main_v33 (ix2 e j)) = ix1 j := funext fun a => by
    match a with
    | ⟨0, _⟩ => rfl
  rw [val_main_v34_apply, val_main_v31_apply, val_main_v33_apply, val_main_v32_apply, Ideal.addf_def, hb]
  unfold dense
  refine congrArg (· + x11 (ix1 j)) (Finset.sum_congr rfl fun k _ => ?_)
  rw [hl, hr, cat_apply]

/-- The force of edge `e`, coordinate `d`. -/
private theorem v39_apply (d : Fin 128) :
    val_main_v39 (F := Ideal) x0 x1 x10 x11 x12 x13 (ix2 e d) =
      dense (fun j => max (dense (cat (fun k => val_main_v10 (F := Ideal) x0 x1 (ix2 e k)) (fun k => val_main_v17 (F := Ideal) x0 x1 (ix2 e k)))
          (fun k j => x10 (ix2 k j)) (fun j => x11 (ix1 j)) j) (Ideal.ofBits .f32 0x00000000#32))
        (fun k j => x12 (ix2 k j)) (fun j => x13 (ix1 j)) d := by
  have hl : ∀ k : Fin 128, lidx_main_v36 (ix2 e d) k = ix2 e k := fun k => funext fun a => by
    match a with
    | ⟨0, _⟩ => rfl
    | ⟨1, _⟩ => rfl
  have hr : ∀ k : Fin 128, ridx_main_v36 (ix2 e d) k = ix2 k d := fun k => funext fun a => by
    match a with
    | ⟨0, _⟩ => rfl
    | ⟨1, _⟩ => rfl
  have hb : idx_main_v37 (idx_main_v38 (ix2 e d)) = ix1 d := funext fun a => by
    match a with
    | ⟨0, _⟩ => rfl
  rw [val_main_v39_apply, val_main_v36_apply, val_main_v38_apply, val_main_v37_apply, Ideal.addf_def, hb]
  refine congrArg (· + x13 (ix1 d)) (Finset.sum_congr rfl fun k _ => ?_)
  rw [hl, hr, val_main_v35_apply, Ideal.maximumf_def, v34_apply, val_main_call0_v0_apply, val_main_call0_cst_apply, Ideal.ofBits_def]

/-- The pressure's first layer before its `tanh`, at `(e, j)`. -/
private theorem v44_apply (j : Fin 128) :
    val_main_v44 (F := Ideal) x0 x1 x6 x7 (ix2 e j) =
      dense (fun k => val_main_v10 (F := Ideal) x0 x1 (ix2 e k) - val_main_v17 (F := Ideal) x0 x1 (ix2 e k))
        (fun k j => x6 (ix2 k j)) (fun j => x7 (ix1 j)) j := by
  have hl : ∀ k : Fin 128, lidx_main_v41 (ix2 e j) k = ix2 e k := fun k => funext fun a => by
    match a with
    | ⟨0, _⟩ => rfl
    | ⟨1, _⟩ => rfl
  have hr : ∀ k : Fin 128, ridx_main_v41 (ix2 e j) k = ix2 k j := fun k => funext fun a => by
    match a with
    | ⟨0, _⟩ => rfl
    | ⟨1, _⟩ => rfl
  have hb : idx_main_v42 (idx_main_v43 (ix2 e j)) = ix1 j := funext fun a => by
    match a with
    | ⟨0, _⟩ => rfl
  rw [val_main_v44_apply, val_main_v41_apply, val_main_v43_apply, val_main_v42_apply, Ideal.addf_def, hb]
  unfold dense
  refine congrArg (· + x7 (ix1 j)) (Finset.sum_congr rfl fun k _ => ?_)
  rw [hl, hr, val_main_v40_apply, Ideal.subf_def]

/-- The pressure of edge `e`, coordinate `d`. -/
private theorem v49_apply (d : Fin 128) :
    val_main_v49 (F := Ideal) x0 x1 x6 x7 x8 x9 (ix2 e d) =
      dense (fun j => Ideal.tanh (dense (fun k => val_main_v10 (F := Ideal) x0 x1 (ix2 e k) - val_main_v17 (F := Ideal) x0 x1 (ix2 e k))
          (fun k j => x6 (ix2 k j)) (fun j => x7 (ix1 j)) j))
        (fun k j => x8 (ix2 k j)) (fun j => x9 (ix1 j)) d := by
  have hl : ∀ k : Fin 128, lidx_main_v46 (ix2 e d) k = ix2 e k := fun k => funext fun a => by
    match a with
    | ⟨0, _⟩ => rfl
    | ⟨1, _⟩ => rfl
  have hr : ∀ k : Fin 128, ridx_main_v46 (ix2 e d) k = ix2 k d := fun k => funext fun a => by
    match a with
    | ⟨0, _⟩ => rfl
    | ⟨1, _⟩ => rfl
  have hb : idx_main_v47 (idx_main_v48 (ix2 e d)) = ix1 d := funext fun a => by
    match a with
    | ⟨0, _⟩ => rfl
  rw [val_main_v49_apply, val_main_v46_apply, val_main_v48_apply, val_main_v47_apply, Ideal.addf_def, hb]
  refine congrArg (· + x9 (ix1 d)) (Finset.sum_congr rfl fun k _ => ?_)
  rw [hl, hr, val_main_v45_apply, Ideal.hostUnary_tanh_def, v44_apply]

/-- The message of edge `e`, coordinate `d`: diffusion plus force, less pressure. -/
private theorem v51_apply (d : Fin 128) :
    val_main_v51 (F := Ideal) x0 x1 x2 x3 x4 x5 x6 x7 x8 x9 x10 x11 x12 x13 (ix2 e d) =
      edgeMsg (fun k => val_main_v10 (F := Ideal) x0 x1 (ix2 e k)) (fun k => val_main_v17 (F := Ideal) x0 x1 (ix2 e k))
        (fun k j => x2 (ix2 k j)) (fun j => x3 (ix1 j)) (fun j => x4 (ix2 j 0)) (x5 (ix1 0))
        (fun k j => x6 (ix2 k j)) (fun j => x7 (ix1 j)) (fun k j => x8 (ix2 k j)) (fun j => x9 (ix1 j))
        (fun k j => x10 (ix2 k j)) (fun j => x11 (ix1 j)) (fun k j => x12 (ix2 k j)) (fun j => x13 (ix1 j)) d := by
  have h29 : idx_main_v29 (ix2 e d) = ix2 e 0 := funext fun a => by
    match a with
    | ⟨0, _⟩ => rfl
    | ⟨1, _⟩ => rfl
  rw [val_main_v51_apply, val_main_v50_apply, val_main_v30_apply, val_main_v29_apply, val_main_v28_apply, h29,
    v27_apply, v39_apply, v49_apply]
  simp only [Ideal.subf_def, Ideal.addf_def, Ideal.mulf_def]
  rfl

end Layers

/-- Entry `i = (e, d)` of the reference's message array is coordinate `d` of the message of rows `e` of its two gathers. -/
theorem msg_apply (x0 : (⟨S50000x128, .f32⟩ : BufTy).Contents (Elt Ideal)) (x1 : (⟨S2x640000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal))
    (i : S640000x128.Idx) :
    val_main_v51 (F := Ideal) x0 x1 x2 x3 x4 x5 x6 x7 x8 x9 x10 x11 x12 x13 i =
      edgeMsg (fun k => val_main_v10 (F := Ideal) x0 x1 (ix2 (i 0) k)) (fun k => val_main_v17 (F := Ideal) x0 x1 (ix2 (i 0) k))
        (fun k j => x2 (ix2 k j)) (fun j => x3 (ix1 j)) (fun j => x4 (ix2 j 0)) (x5 (ix1 0))
        (fun k j => x6 (ix2 k j)) (fun j => x7 (ix1 j)) (fun k j => x8 (ix2 k j)) (fun j => x9 (ix1 j))
        (fun k j => x10 (ix2 k j)) (fun j => x11 (ix1 j)) (fun k j => x12 (ix2 k j)) (fun j => x13 (ix1 j)) (i 1) := by
  exact (congrArg (val_main_v51 (F := Ideal) x0 x1 x2 x3 x4 x5 x6 x7 x8 x9 x10 x11 x12 x13) (eq_ix2 i)).trans
    (v51_apply x0 x1 x2 x3 x4 x5 x6 x7 x8 x9 x10 x11 x12 x13 (i 0) (i 1))

end Cert.ReferenceIdeal.Msg

end
-- ==== Proof.RefResult.lean ====
/- The reference's result as one function of its arguments: `tail` of `h`, of the sources and of the message array
   over the rows of `h` gathered at the sources and at the targets. -/
import proofs.«418441_j41128606827044_1_alg».proof.Proof.RefHost
import proofs.«418441_j41128606827044_1_alg».proof.Proof.RefMsg
import proofs.«418441_j41128606827044_1_alg».proof.Proof.MsgSpec

noncomputable section

namespace Cert.ReferenceIdeal.Result

open Idealize.ShloMosaic Idealize.ShloMosaic.ValueIdx Cert.ReferenceIdeal Cert.ReferenceIdeal.Gen Cert.ReferenceIdeal.Read Cert.EdgeSpec
open Cert.ReferenceIdeal.HostPre Cert.ReferenceIdeal.Msg

/-- The rows of `h` at the given node numbers, as the reference gathers them. -/
def gatherRows (h : (⟨S50000x128, .f32⟩ : BufTy).Contents (Elt Ideal)) (idx : (⟨S640000, .i32⟩ : BufTy).Contents (Elt Ideal)) :
    (⟨S640000x128, .f32⟩ : BufTy).Contents (Elt Ideal) :=
  Host.gather gather_S50000x128_S640000x1_S640000x128_1_0_n_n_0_1_1128 h (broadcastInDim S640000x1 ![0] bcast_S640000_S640000x1_0 idx)

theorem result_eq (x0 : (⟨S50000x128, .f32⟩ : BufTy).Contents (Elt Ideal)) (x1 : (⟨S2x640000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S256x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal))
    (hr : ∀ i : S2x640000.Idx, 0 ≤ (x1 i).toInt ∧ (x1 i).toInt < 50000) :
    val_main_v57 (F := Ideal) x0 x1 x2 x3 x4 x5 x6 x7 x8 x9 x10 x11 x12 x13 =
      tail x0 (val_main_v1 (F := Ideal) x1)
        (msgOfArgs (gatherRows x0 (val_main_v1 (F := Ideal) x1)) (gatherRows x0 (val_main_v3 (F := Ideal) x1))
          x2 x3 x4 x5 x6 x7 x8 x9 x10 x11 x12 x13) := by
  rw [v57_eq]
  refine congrArg (tail x0 (val_main_v1 (F := Ideal) x1)) (funext fun i => ?_)
  rw [msg_apply, v10_eq x0 x1 hr, v17_eq x0 x1 hr]
  rfl

end Cert.ReferenceIdeal.Result

end
-- ==== Proof.lean ====
/- The certificate of the edge layer: the Pallas program and the jnp reference compute the same node update.

   Both programs gather, for every edge, the row of `h` at its source and at its target, turn the two rows into a
   message by the same six dense layers (the kernel in blocks of 2000 edges, the reference over all edges at once),
   add the messages up at the sources, scale by the step 0.03 and add `h`.  Over the extended reals the two are the
   same formula term by term: a change of float format is the identity, a matrix product into a zero accumulator is the
   plain sum, and nothing is regrouped, so no law of the extended reals is needed and finiteness of the inputs is
   never used.  The one place the texts differ is the gather: the kernel's take replaces the row of an index outside
   `[0, 50000)` by a fill value where the reference's indexing clamps.  The statement's domain conjunct (every entry of
   the edge list is a node number) makes both the plain gather of rows. -/
import proofs.«418441_j41128606827044_1_alg».proof.Defs
import proofs.«418441_j41128606827044_1_alg».proof.Proof.Gen.Kernel
import proofs.«418441_j41128606827044_1_alg».proof.Proof.Gen.Kernel.Skeleton
import proofs.«418441_j41128606827044_1_alg».proof.Proof.Gen.Kernel.Launch
import proofs.«418441_j41128606827044_1_alg».proof.Proof.Gen.Kernel.Points
import proofs.«418441_j41128606827044_1_alg».proof.Proof.Gen.Kernel.Frame
import proofs.«418441_j41128606827044_1_alg».proof.Proof.Gen.KernelIdeal
import proofs.«418441_j41128606827044_1_alg».proof.Proof.Gen.KernelIdeal.Skeleton
import proofs.«418441_j41128606827044_1_alg».proof.Proof.Gen.KernelIdeal.Launch
import proofs.«418441_j41128606827044_1_alg».proof.Proof.Gen.KernelIdeal.Points
import proofs.«418441_j41128606827044_1_alg».proof.Proof.Gen.KernelIdeal.Frame
import proofs.«418441_j41128606827044_1_alg».proof.Proof.Gen.ReferenceIdeal
import proofs.«418441_j41128606827044_1_alg».proof.Proof.Gen.ReferenceIdeal.Run
import proofs.«418441_j41128606827044_1_alg».proof.Proof.Gen.ReferenceIdeal.Read
import proofs.«418441_j41128606827044_1_alg».proof.Proof.Gen.Pre_finite_inputs
import proofs.«418441_j41128606827044_1_alg».proof.Proof.Domain
import proofs.«418441_j41128606827044_1_alg».proof.Proof.KernelRun
import proofs.«418441_j41128606827044_1_alg».proof.Proof.RefResult
import Idealize.ShloMosaic.Adequacy
import Idealize.ShloMosaic.Init

noncomputable section

namespace Cert.Proof

open Idealize.ShloMosaic Idealize.SL.Sem Cert.Kernel

/-- The two idealized programs, from memories agreeing on the arguments, end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (i : Cert.KernelIdeal.S2x640000.Idx),
      0 ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 50000 :=
    fun c i => Cert.Domain.edge_range _ _ _ _ _ _ _ _ _ _ _ _ _ _ (hpre c) i
  refine ⟨fun c => Cert.KernelIdeal.Result.result m c, Cert.KernelIdeal.Result.run m ρ hr, ?_⟩
  refine (θ_run Cert.ReferenceIdeal.defs _ _).mono (fun r h c => ⟨?_, (h c).2⟩) (Cert.ReferenceIdeal.Value.run (F := Ideal) m' ρ')
  have hr' : ∀ i : Cert.ReferenceIdeal.S2x640000.Idx, 0 ≤ ((m' ((c.tc : Thread Cert.ReferenceIdeal.nD Cert.ReferenceIdeal.τ).loc Cert.ReferenceIdeal.main_arg1)) i).toInt ∧ ((m' ((c.tc : Thread Cert.ReferenceIdeal.nD Cert.ReferenceIdeal.τ).loc Cert.ReferenceIdeal.main_arg1)) i).toInt < 50000 := by
    rw [(hagree c).2.1]; exact hr c
  rw [(h c).1, Cert.ReferenceIdeal.Read.val_main_v57_eq, Cert.ReferenceIdeal.Result.result_eq _ _ _ _ _ _ _ _ _ _ _ _ _ _ hr',
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
